-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S32x1024x768 : Shape := ⟨3, ![32, 1024, 768]⟩
abbrev S64x768 : Shape := ⟨2, ![64, 768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S32x1024x768 : S_.BroadcastsInDim S32x1024x768 (![] : Fin 0 → Fin S32x1024x768.rank)
  reducesTo_S32x1024x768_S_d0_1_2 : S32x1024x768.ReducesTo [0, 1, 2] S_
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S32x512x768 .f32) (main_arg1 : FVec F S32x1024x768 .f32) (main_arg2 : FVec F S64x768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S32x1024x768 .f32 := Host.absf main_arg1
  let main_cst_0 : FVec F S_ .f32 := constant S_ .f32 0x7F800000#32
  let main_v5 : FVec F S32x1024x768 .f32 := broadcastInDim S32x1024x768 ![] bcast_S_S32x1024x768 main_cst_0
  let main_v6 : IVec S32x1024x768 1 := cmpf .olt main_v4 main_v5
  let main_c_1 : IVec S_ 1 := constantI S_ 1 1#1
  let main_v7 : IVec S_ 1 := (fun x v => Host.reduce IntOp.andi x v reducesTo_S32x1024x768_S_d0_1_2 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  main_v13
-- ==== Kernel.lean ====
abbrev S32x512x768 : Shape := ⟨3, ![32, 512, 768]⟩
abbrev S32x1024x768 : Shape := ⟨3, ![32, 1024, 768]⟩
abbrev S64x768 : Shape := ⟨2, ![64, 768]⟩
abbrev S8x4x1024 : Shape := ⟨3, ![8, 4, 1024]⟩
abbrev S4x512x768 : Shape := ⟨3, ![4, 512, 768]⟩
abbrev S4x1024x768 : Shape := ⟨3, ![4, 1024, 768]⟩
abbrev S1x4x1024 : Shape := ⟨3, ![1, 4, 1024]⟩
abbrev S1x512x768 : Shape := ⟨3, ![1, 512, 768]⟩
abbrev S512x768 : Shape := ⟨2, ![512, 768]⟩
abbrev S1x1024x768 : Shape := ⟨3, ![1, 1024, 768]⟩
abbrev S1024x768 : Shape := ⟨2, ![1024, 768]⟩
abbrev S64x512 : Shape := ⟨2, ![64, 512]⟩
abbrev S64 : Shape := ⟨1, ![64]⟩
abbrev S64x1 : Shape := ⟨2, ![64, 1]⟩
abbrev S64x1024 : Shape := ⟨2, ![64, 1024]⟩
abbrev S1024 : Shape := ⟨1, ![1024]⟩
abbrev S1x1024 : Shape := ⟨2, ![1, 1024]⟩
abbrev S1x1x1024 : Shape := ⟨3, ![1, 1, 1024]⟩
abbrev S32x1024 : Shape := ⟨2, ![32, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x512x768, .f32⟩
  | .hbm, ⟨1, _⟩ => ⟨S32x1024x768, .f32⟩
  | .hbm, ⟨2, _⟩ => ⟨S64x768, .f32⟩
  | .hbm, ⟨3, _⟩ => ⟨S8x4x1024, .f32⟩
  | .hbm, ⟨4, _⟩ => ⟨S32x1024, .f32⟩
  | .local _ .vmem, ⟨0, _⟩ => ⟨S4x512x768, .f32⟩
  | .local _ .vmem, ⟨1, _⟩ => ⟨S4x512x768, .f32⟩
  | .local _ .vmem, ⟨2, _⟩ => ⟨S4x1024x768, .f32⟩
  | .local _ .vmem, ⟨3, _⟩ => ⟨S4x1024x768, .f32⟩
  | .local _ .vmem, ⟨4, _⟩ => ⟨S64x768, .f32⟩
  | .local _ .vmem, ⟨5, _⟩ => ⟨S1x4x1024, .f32⟩
  | .local _ .vmem, ⟨6, _⟩ => ⟨S1x4x1024, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x768_S64x768_0_0 : ∀ a, (![0, 0] : Fin 2 → Nat) a + S64x768.size a ≤ S64x768.size a
  h_S64x768 : 0 < S64x768.numel
  inb_S4x512x768_S1x512x768_0_0_0 : ∀ a, (![0, 0, 0] : Fin 3 → Nat) a + S1x512x768.size a ≤ S4x512x768.size a
  h_S1x512x768 : 0 < S1x512x768.numel
  shapeCasts_S1x512x768_S512x768 : S1x512x768.ShapeCasts S512x768
  inb_S4x1024x768_S1x1024x768_0_0_0 : ∀ a, (![0, 0, 0] : Fin 3 → Nat) a + S1x1024x768.size a ≤ S4x1024x768.size a
  h_S1x1024x768 : 0 < S1x1024x768.numel
  shapeCasts_S1x1024x768_S1024x768 : S1x1024x768.ShapeCasts S1024x768
  reduces_S64x512_S64 : S64x512.Reduces [1] S64
  shapeCasts_S64_S64x1 : S64.ShapeCasts S64x1
  broadcasts_S64x1_S64x768 : S64x1.Broadcasts S64x768
  reduces_S64x1024_S1024 : S64x1024.Reduces [0] S1024
  shapeCasts_S1024_S1x1024 : S1024.ShapeCasts S1x1024
  broadcasts_S1x1024_S64x1024 : S1x1024.Broadcasts S64x1024
  inb_S1x4x1024_S1x1x1024_0_0_0 : ∀ a, (![0, 0, 0] : Fin 3 → Nat) a + S1x1x1024.size a ≤ S1x4x1024.size a
  h_S1x1x1024 : 0 < S1x1x1024.numel
  shapeCasts_S1x1x1024_S1024 : S1x1x1024.ShapeCasts S1024
  shapeCasts_S1024_S1x1x1024 : S1024.ShapeCasts S1x1x1024
  inb_S4x512x768_S1x512x768_1_0_0 : ∀ a, (![1, 0, 0] : Fin 3 → Nat) a + S1x512x768.size a ≤ S4x512x768.size a
  inb_S4x1024x768_S1x1024x768_1_0_0 : ∀ a, (![1, 0, 0] : Fin 3 → Nat) a + S1x1024x768.size a ≤ S4x1024x768.size a
  inb_S1x4x1024_S1x1x1024_0_1_0 : ∀ a, (![0, 1, 0] : Fin 3 → Nat) a + S1x1x1024.size a ≤ S1x4x1024.size a
  inb_S4x512x768_S1x512x768_2_0_0 : ∀ a, (![2, 0, 0] : Fin 3 → Nat) a + S1x512x768.size a ≤ S4x512x768.size a
  inb_S4x1024x768_S1x1024x768_2_0_0 : ∀ a, (![2, 0, 0] : Fin 3 → Nat) a + S1x1024x768.size a ≤ S4x1024x768.size a
  inb_S1x4x1024_S1x1x1024_0_2_0 : ∀ a, (![0, 2, 0] : Fin 3 → Nat) a + S1x1x1024.size a ≤ S1x4x1024.size a
  inb_S4x512x768_S1x512x768_3_0_0 : ∀ a, (![3, 0, 0] : Fin 3 → Nat) a + S1x512x768.size a ≤ S4x512x768.size a
  inb_S4x1024x768_S1x1024x768_3_0_0 : ∀ a, (![3, 0, 0] : Fin 3 → Nat) a + S1x1024x768.size a ≤ S4x1024x768.size a
  inb_S1x4x1024_S1x1x1024_0_3_0 : ∀ a, (![0, 3, 0] : Fin 3 → Nat) a + S1x1x1024.size a ≤ S1x4x1024.size a
  shapeCasts_S8x4x1024_S32x1024 : S8x4x1024.ShapeCasts S32x1024
  dot_S64x768_S512x768_S64x512_1_1_0_0_n_n_wf : DotDims.WF S64x768 S512x768 S64x512 [1] [1] [0] [0] [] []
  dot_S64x512_S512x768_S64x768_1_0_0_1_n_n_wf : DotDims.WF S64x512 S512x768 S64x768 [1] [0] [0] [1] [] []
  dot_S64x768_S1024x768_S64x1024_1_1_0_0_n_n_wf : DotDims.WF S64x768 S1024x768 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S32x512x768.size a
  hwx0_0 : ∀ i : grid0.Coords, EltTy.bits .f32 = 32 ∨ (Rect.block (s := S32x512x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x768.size a ≤ S32x1024x768.size a
  hwx0_1 : ∀ i : grid0.Coords, EltTy.bits .f32 = 32 ∨ (Rect.block (s := S32x1024x768) S4x1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .f32 = 32 ∨ (Rect.block (s := S64x768) S64x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1024.size a ≤ S8x4x1024.size a
  hwx0_3 : ∀ i : grid0.Coords, EltTy.bits .f32 = 32 ∨ (Rect.block (s := S8x4x1024) S1x4x1024.size (cc0_transform_3 i) (hinb0_3 i)).WholeWords (EltTy.packing .f32)

variable [Facts₀]

def dot_S64x768_S512x768_S64x512_1_1_0_0_n_n : DotDims S64x768 S512x768 S64x512 where
  lhsContracting := [1]
  rhsContracting := [1]
  lhsNonContracting := [0]
  rhsNonContracting := [0]
  lhsBatch := []
  rhsBatch := []
  wf := dot_S64x768_S512x768_S64x512_1_1_0_0_n_n_wf
def dot_S64x512_S512x768_S64x768_1_0_0_1_n_n : DotDims S64x512 S512x768 S64x768 where
  lhsContracting := [1]
  rhsContracting := [0]
  lhsNonContracting := [0]
  rhsNonContracting := [1]
  lhsBatch := []
  rhsBatch := []
  wf := dot_S64x512_S512x768_S64x768_1_0_0_1_n_n_wf
def dot_S64x768_S1024x768_S64x1024_1_1_0_0_n_n : DotDims S64x768 S1024x768 S64x1024 where
  lhsContracting := [1]
  rhsContracting := [1]
  lhsNonContracting := [0]
  rhsNonContracting := [0]
  lhsBatch := []
  rhsBatch := []
  wf := dot_S64x768_S1024x768_S64x1024_1_1_0_0_n_n_wf

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S32x1024x768 : Shape := ⟨3, ![32, 1024, 768]⟩
abbrev S64x768 : Shape := ⟨2, ![64, 768]⟩
abbrev S1x64x768 : Shape := ⟨3, ![1, 64, 768]⟩
abbrev S32x64x768 : Shape := ⟨3, ![32, 64, 768]⟩
abbrev S32x768x512 : Shape := ⟨3, ![32, 768, 512]⟩
abbrev S32x64x512 : Shape := ⟨3, ![32, 64, 512]⟩
abbrev S_ : Shape := ⟨0, ![]⟩
abbrev S32x64 : Shape := ⟨2, ![32, 64]⟩
abbrev S32x64x1 : Shape := ⟨3, ![32, 64, 1]⟩
abbrev S32x768x64 : Shape := ⟨3, ![32, 768, 64]⟩
abbrev S32x1024x64 : Shape := ⟨3, ![32, 1024, 64]⟩
abbrev S32x1024 : Shape := ⟨2, ![32, 1024]⟩
abbrev S32x1024x1 : Shape := ⟨3, ![32, 1024, 1]⟩

abbrev nBuf : Space → Nat
  | .hbm => 42
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x1024x768, .f32⟩
  | .hbm, ⟨2, _⟩ => ⟨S64x768, .f32⟩
  | .hbm, ⟨3, _⟩ => ⟨S1x64x768, .f32⟩
  | .hbm, ⟨4, _⟩ => ⟨S32x64x768, .f32⟩
  | .hbm, ⟨5, _⟩ => ⟨S32x768x512, .f32⟩
  | .hbm, ⟨6, _⟩ => ⟨S32x64x512, .f32⟩
  | .hbm, ⟨7, _⟩ => ⟨S_, .f32⟩
  | .hbm, ⟨8, _⟩ => ⟨S32x64, .f32⟩
  | .hbm, ⟨9, _⟩ => ⟨S_, .f32⟩
  | .hbm, ⟨10, _⟩ => ⟨S32x64, .f32⟩
  | .hbm, ⟨11, _⟩ => ⟨S32x64, .f32⟩
  | .hbm, ⟨12, _⟩ => ⟨S32x64x1, .f32⟩
  | .hbm, ⟨13, _⟩ => ⟨S32x64x512, .f32⟩
  | .hbm, ⟨14, _⟩ => ⟨S32x64x512, .f32⟩
  | .hbm, ⟨15, _⟩ => ⟨S32x64x512, .f32⟩
  | .hbm, ⟨16, _⟩ => ⟨S_, .f32⟩
  | .hbm, ⟨17, _⟩ => ⟨S32x64, .f32⟩
  | .hbm, ⟨18, _⟩ => ⟨S32x64x1, .f32⟩
  | .hbm, ⟨19, _⟩ => ⟨S32x64x512, .f32⟩
  | .hbm, ⟨20, _⟩ => ⟨S32x64x512, .f32⟩
  | .hbm, ⟨21, _⟩ => ⟨S32x64x768, .f32⟩
  | .hbm, ⟨22, _⟩ => ⟨S32x768x64, .f32⟩
  | .hbm, ⟨23, _⟩ => ⟨S32x1024x64, .f32⟩
  | .hbm, ⟨24, _⟩ => ⟨S_, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024x1, .f32⟩
  | .hbm, ⟨30, _⟩ => ⟨S32x1024x64, .f32⟩
  | .hbm, ⟨31, _⟩ => ⟨S32x1024x64, .f32⟩
  | .hbm, ⟨32, _⟩ => ⟨S32x1024x64, .f32⟩
  | .hbm, ⟨33, _⟩ => ⟨S_, .f32⟩
  | .hbm, ⟨34, _⟩ => ⟨S32x1024, .f32⟩
  | .hbm, ⟨35, _⟩ => ⟨S32x1024x1, .f32⟩
  | .hbm, ⟨36, _⟩ => ⟨S32x1024x64, .f32⟩
  | .hbm, ⟨37, _⟩ => ⟨S32x1024x64, .f32⟩
  | .hbm, ⟨38, _⟩ => ⟨S32x1024x768, .f32⟩
  | .hbm, ⟨39, _⟩ => ⟨S32x1024x768, .f32⟩
  | .hbm, ⟨40, _⟩ => ⟨S_, .f32⟩
  | .hbm, ⟨41, _⟩ => ⟨S32x1024, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S64x768_S1x64x768_1_2 : S64x768.BroadcastsInDim S1x64x768 (![1, 2] : Fin 2 → Fin S1x64x768.rank)
  bcast_S1x64x768_S32x64x768_0_1_2 : S1x64x768.BroadcastsInDim S32x64x768 (![0, 1, 2] : Fin 3 → Fin S32x64x768.rank)
  transposes_S32x512x768_S32x768x512_0_2_1 : S32x512x768.Transposes [0, 2, 1] S32x768x512
  reducesTo_S32x64x512_S32x64_d2 : S32x64x512.ReducesTo [2] S32x64
  h_S_ : 0 < S_.numel
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  bcast_S32x64x1_S32x64x512_0_1_2 : S32x64x1.BroadcastsInDim S32x64x512 (![0, 1, 2] : Fin 3 → Fin S32x64x512.rank)
  transposes_S32x64x768_S32x768x64_0_2_1 : S32x64x768.Transposes [0, 2, 1] S32x768x64
  reducesTo_S32x1024x64_S32x1024_d2 : S32x1024x64.ReducesTo [2] S32x1024
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x64_0_1_2 : S32x1024x1.BroadcastsInDim S32x1024x64 (![0, 1, 2] : Fin 3 → Fin S32x1024x64.rank)
  reducesTo_S32x1024x768_S32x1024_d2 : S32x1024x768.ReducesTo [2] S32x1024
  dot_S32x64x768_S32x768x512_S32x64x512_2_1_1_2_0_0_wf : DotDims.WF S32x64x768 S32x768x512 S32x64x512 [2] [1] [1] [2] [0] [0]
  dot_S32x64x512_S32x512x768_S32x64x768_2_1_1_2_0_0_wf : DotDims.WF S32x64x512 S32x512x768 S32x64x768 [2] [1] [1] [2] [0] [0]
  dot_S32x1024x768_S32x768x64_S32x1024x64_2_1_1_2_0_0_wf : DotDims.WF S32x1024x768 S32x768x64 S32x1024x64 [2] [1] [1] [2] [0] [0]
  dot_S32x1024x64_S32x64x768_S32x1024x768_2_1_1_2_0_0_wf : DotDims.WF S32x1024x64 S32x64x768 S32x1024x768 [2] [1] [1] [2] [0] [0]

variable [Facts₀]

def dot_S32x64x768_S32x768x512_S32x64x512_2_1_1_2_0_0 : DotDims S32x64x768 S32x768x512 S32x64x512 where
  lhsContracting := [2]
  rhsContracting := [1]
  lhsNonContracting := [1]
  rhsNonContracting := [2]
  lhsBatch := [0]
  rhsBatch := [0]
  wf := dot_S32x64x768_S32x768x512_S32x64x512_2_1_1_2_0_0_wf
def dot_S32x64x512_S32x512x768_S32x64x768_2_1_1_2_0_0 : DotDims S32x64x512 S32x512x768 S32x64x768 where
  lhsContracting := [2]
  rhsContracting := [1]
  lhsNonContracting := [1]
  rhsNonContracting := [2]
  lhsBatch := [0]
  rhsBatch := [0]
  wf := dot_S32x64x512_S32x512x768_S32x64x768_2_1_1_2_0_0_wf
def dot_S32x1024x768_S32x768x64_S32x1024x64_2_1_1_2_0_0 : DotDims S32x1024x768 S32x768x64 S32x1024x64 where
  lhsContracting := [2]
  rhsContracting := [1]
  lhsNonContracting := [1]
  rhsNonContracting := [2]
  lhsBatch := [0]
  rhsBatch := [0]
  wf := dot_S32x1024x768_S32x768x64_S32x1024x64_2_1_1_2_0_0_wf
def dot_S32x1024x64_S32x64x768_S32x1024x768_2_1_1_2_0_0 : DotDims S32x1024x64 S32x64x768 S32x1024x768 where
  lhsContracting := [2]
  rhsContracting := [1]
  lhsNonContracting := [1]
  rhsNonContracting := [2]
  lhsBatch := [0]
  rhsBatch := [0]
  wf := dot_S32x1024x64_S32x64x768_S32x1024x768_2_1_1_2_0_0_wf

class Facts : Prop extends Facts₀ where

variable [Facts]
-- ==== Proof.Spec.lean ====
/-
  The mathematics of the score, over the reals.

  For one batch element, with code vectors w (M×D), context tokens ctx (S×D) and candidates cand (R×D):
    logit1 m s = Σ_d w m d · ctx s d
    emb m d    = the mean of ctx · d over s, weighted by exp (logit1 m s)
    logit2 m r = Σ_d emb m d · cand r d
    score r    = the mean of logit2 · r over m, weighted by exp (logit2 m r).
  An exponentially weighted mean does not change when a constant is subtracted from every exponent (numerator and
  denominator both gain the factor exp (-c)); this is why a softmax taken with or without the row maximum subtracted is
  the same function. Normalising the weights before or after the weighted sum is the same by linearity of a finite sum,
  and the candidate's product with a mixture of embeddings is the mixture of its products with each embedding.
-/
import Mathlib.Analysis.SpecialFunctions.Exp
import Mathlib.Algebra.BigOperators.Field
import Mathlib.Data.EReal.Basic
import Idealize.ShloMosaic.PureOps.Ideal
import Idealize.ShloMosaic.Lib.ValueIdx

noncomputable section

open scoped BigOperators

namespace Cert.Poly

open Idealize.ShloMosaic Idealize.ShloMosaic.ValueIdx

/-- The mean of y weighted by exp x. -/
def wmean {ι : Type*} [Fintype ι] (x y : ι → ℝ) : ℝ := (∑ i, Real.exp (x i) * y i) / ∑ i, Real.exp (x i)

/-- Subtracting a constant from every exponent leaves the weighted mean unchanged. -/
theorem wmean_shift {ι : Type*} [Fintype ι] (x y : ι → ℝ) (c : ℝ) :
    (∑ i, Real.exp (x i - c) * y i) / (∑ i, Real.exp (x i - c)) = wmean x y := by
  unfold wmean
  have h : ∀ i, Real.exp (x i - c) = Real.exp (x i) * Real.exp (-c) := fun i => by
    rw [sub_eq_add_neg, Real.exp_add]
  have hc : Real.exp (-c) ≠ 0 := (Real.exp_pos _).ne'
  have hn : ∑ i, Real.exp (x i - c) * y i = (∑ i, Real.exp (x i) * y i) * Real.exp (-c) := by
    rw [Finset.sum_mul]; exact Finset.sum_congr rfl fun i _ => by rw [h i]; ring
  have hd : ∑ i, Real.exp (x i - c) = (∑ i, Real.exp (x i)) * Real.exp (-c) := by
    rw [Finset.sum_mul]; exact Finset.sum_congr rfl fun i _ => h i
  rw [hn, hd, mul_div_mul_right _ _ hc]

/-- Weights normalised first (a softmax, shifted by any constant) and then summed against y give the weighted mean. -/
theorem sum_softmax_mul {ι : Type*} [Fintype ι] (x y : ι → ℝ) (c : ℝ) :
    ∑ i, (Real.exp (x i - c) / ∑ j, Real.exp (x j - c)) * y i = wmean x y := by
  rw [← wmean_shift x y c, Finset.sum_div]
  exact Finset.sum_congr rfl fun i _ => by ring

/-- A sum of exponentials over a nonempty index set is positive. -/
theorem sum_exp_pos {ι : Type*} [Fintype ι] [Nonempty ι] (x : ι → ℝ) : 0 < ∑ i, Real.exp (x i) :=
  Finset.sum_pos (fun i _ => Real.exp_pos _) Finset.univ_nonempty

/-- The product of c with a mixture Σ_m a m · e m is the mixture of the products. -/
theorem sum_mix_mul {μ δ : Type*} [Fintype μ] [Fintype δ] (a : μ → ℝ) (e : μ → δ → ℝ) (c : δ → ℝ) :
    ∑ d, (∑ m, a m * e m d) * c d = ∑ m, a m * ∑ d, e m d * c d := by
  simp_rw [Finset.sum_mul, Finset.mul_sum]
  rw [Finset.sum_comm]
  exact Finset.sum_congr rfl fun m _ => Finset.sum_congr rfl fun d _ => by ring

section Score
variable {M S R D : ℕ}

/-- The first attention's logits: code vector m against context token s. -/
def logit1 (w : Fin M → Fin D → ℝ) (ctx : Fin S → Fin D → ℝ) (m : Fin M) (s : Fin S) : ℝ := ∑ d, w m d * ctx s d
/-- Code m's context embedding: the softmax-weighted mean of the context tokens. -/
def emb (w : Fin M → Fin D → ℝ) (ctx : Fin S → Fin D → ℝ) (m : Fin M) (d : Fin D) : ℝ :=
  wmean (logit1 w ctx m) (fun s => ctx s d)
/-- The second attention's logits: embedding m against candidate r. -/
def logit2 (w : Fin M → Fin D → ℝ) (ctx : Fin S → Fin D → ℝ) (cand : Fin R → Fin D → ℝ) (m : Fin M) (r : Fin R) : ℝ :=
  ∑ d, emb w ctx m d * cand r d
/-- Candidate r's score: the softmax-weighted mean over the codes of its own logits. -/
def score (w : Fin M → Fin D → ℝ) (ctx : Fin S → Fin D → ℝ) (cand : Fin R → Fin D → ℝ) (r : Fin R) : ℝ :=
  wmean (fun m => logit2 w ctx cand m r) (fun m => logit2 w ctx cand m r)

end Score

/-- Every entry of the array is a real number (neither infinity). -/
def IsReal {s : Shape} (x : s.Idx → EReal) : Prop := ∀ i, ∃ r : ℝ, x i = (r : EReal)

theorem IsReal.eq_coe {s : Shape} {x : s.Idx → EReal} (h : IsReal x) (i : s.Idx) : x i = ((x i).toReal : EReal) := by
  obtain ⟨r, hr⟩ := h i
  rw [hr, EReal.toReal_coe]

/-- Batch b of the context array as a real matrix. -/
def ctxR (ctx : (⟨3, ![32, 512, 768]⟩ : Shape).Idx → EReal) (b : Fin 32) (s : Fin 512) (d : Fin 768) : ℝ := (ctx (ix3 b s d)).toReal
/-- Batch b of the candidate array as a real matrix. -/
def candR (cand : (⟨3, ![32, 1024, 768]⟩ : Shape).Idx → EReal) (b : Fin 32) (r : Fin 1024) (d : Fin 768) : ℝ := (cand (ix3 b r d)).toReal
/-- The code table as a real matrix. -/
def wR (w : (⟨2, ![64, 768]⟩ : Shape).Idx → EReal) (m : Fin 64) (d : Fin 768) : ℝ := (w (ix2 m d)).toReal

/-- The whole result array: entry (b, r) is candidate r's score in batch b. -/
def G (ctx : (⟨3, ![32, 512, 768]⟩ : Shape).Idx → EReal) (cand : (⟨3, ![32, 1024, 768]⟩ : Shape).Idx → EReal)
    (w : (⟨2, ![64, 768]⟩ : Shape).Idx → EReal) : (⟨2, ![32, 1024]⟩ : Shape).Idx → EReal :=
  fun i => ((score (wR w) (ctxR ctx (i 0)) (candR cand (i 0)) (i 1) : ℝ) : EReal)

end Cert.Poly

end
-- ==== Proof.Finite.lean ====
/-
  From the precondition to "every entry is a real number".

  The precondition says, for each of the three argument arrays, that every entry x satisfies |x| < +∞, the three facts
  and-ed into one bit. At the exact instance an entry is an extended real, |x| is max x (-x), and the word 0x7F800000
  denotes +∞. The absolute value of either infinity is +∞, which is not below +∞, so an entry with |x| < +∞ is neither
  infinity: it is a real number. A conjunction that came out 1 had both sides 1, and an "all" that came out 1 (a
  reduction by "and" over every axis, started at 1) had a 1 at every index; so the one bit gives the entry fact at
  every index of every array.
-/
import Mathlib.Data.EReal.Basic
import Idealize.ShloMosaic.PureOps.Ideal
import Idealize.ShloMosaic.Lib.ReduceAll
import proofs.«114482_g12025908429422_cont_fleet_699_15_alg».proof.Proof.Gen.Pre_finite_inputs
import proofs.«114482_g12025908429422_cont_fleet_699_15_alg».proof.Proof.Spec

noncomputable section

namespace Cert.Poly

open Idealize.ShloMosaic Idealize.ShloMosaic.ValueIdx

/-- The word of +∞ denotes the top of the extended reals. -/
theorem ofBits_pos_inf : Ideal.ofBits .f32 0x7F800000#32 = (⊤ : EReal) := by
  simp [Ideal.ofBits, Ideal.ieee]

/-- An extended real whose absolute value max x (-x) lies strictly below +∞ is a real number: at either infinity the
    absolute value is +∞ itself. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The entry fact in the form the predicate states it: the bit of the comparison |x| < (the word of +∞) is 1 only
    at a real number. -/
theorem real_of_cmp_abs (x : Ideal .f32)
    (h : FloatOps.cmpf .olt (FloatOps.hostAbsf x) (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [ofBits_pos_inf] at h'
  refine real_of_abs_lt_top x ?_
  by_contra hn
  rw [decide_eq_false hn] at h'
  exact absurd h' (by decide)

/-- The rank-0 shape has one index. -/
instance subsingleton_scalar_idx : Subsingleton (⟨0, ![]⟩ : Shape).Idx := ⟨fun a b => funext fun d => d.elim0⟩

/-- "all (|x| < +∞) = 1" over an array of any shape: every entry of the array is a real number. The "all" is a
    reduction by "and" over every axis into the one-index shape; it is 1 only if the compared bit is 1 at every index,
    and there the broadcast scalar reads the word of +∞. -/
theorem isReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
          (cmpf .olt (Host.absf x) (broadcastInDim s ![] hb (constant (⟨0, ![]⟩ : Shape) .f32 0x7F800000#32))) init hr hu j = 1#1) :
    IsReal x := by
  intro i
  have hi := Host.reduce_andi_all _ init hr hu j e i
  exact real_of_cmp_abs (x i) hi

/-- The precondition gives: every entry of each of the three argument arrays is a real number. -/
theorem isReal_of_pre (a0 : FVec Ideal Cert.Pre_finite_inputs.S32x512x768 .f32)
    (a1 : FVec Ideal Cert.Pre_finite_inputs.S32x1024x768 .f32) (a2 : FVec Ideal Cert.Pre_finite_inputs.S64x768 .f32)
    (h : Cert.Pre_finite_inputs.fn (F := Ideal) a0 a1 a2 = (fun _ => 1#1)) :
    IsReal a0 ∧ IsReal a1 ∧ IsReal a2 := by
  have e := congrFun h ix0
  dsimp only [Cert.Pre_finite_inputs.fn] at e
  have e' := (IntOp.andi_eq_one.1 e)
  obtain ⟨e01, e2⟩ := e'
  obtain ⟨e0, e1⟩ := IntOp.andi_eq_one.1 e01
  exact ⟨isReal_of_all a0 _ _ _ _ _ e0, isReal_of_all a1 _ _ _ _ _ e1, isReal_of_all a2 _ _ _ _ _ e2⟩

end Cert.Poly

end
-- ==== Proof.Lift.lean ====
/-
  Extended-real arithmetic on entries that are real numbers.

  At the exact instance a float is an extended real; when every operand entry is a real number the sum, product,
  difference, quotient by a nonzero divisor and exponential of entries are again real numbers, and a maximum taken from
  -∞ over a nonempty finite family of reals is one of them. These are the facts that carry a computation on finite
  inputs down to the real line, where the algebra is done.
-/
import Mathlib.Analysis.SpecialFunctions.Exp
import Mathlib.Data.EReal.Basic
import Idealize.ShloMosaic.PureOps.Ideal
import Idealize.ShloMosaic.PureOps.Ideal.Laws

noncomputable section

open scoped BigOperators

namespace Cert.Poly

open Idealize.ShloMosaic

/-- A finite sum of reals, each read as an extended real, is the real sum. -/
theorem sum_coe {ι : Type*} [Fintype ι] (f : ι → ℝ) : ∑ k, ((f k : ℝ) : EReal) = ((∑ k, f k : ℝ) : EReal) := by
  classical
  induction (Finset.univ : Finset ι) using Finset.induction_on with
  | empty => simp
  | insert a s ha ih => rw [Finset.sum_insert ha, Finset.sum_insert ha, ih, EReal.coe_add]

/-- The exponential of a real, at the exact instance, is the real exponential. -/
theorem exp_coe (x : ℝ) : Ideal.exp (x : EReal) = ((Real.exp x : ℝ) : EReal) := rfl

/-- The quotient of two reals with a nonzero divisor, at the exact instance, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The word of -∞ denotes the bottom of the extended reals. -/
theorem ofBits_neg_inf : Ideal.ofBits .f32 0xFF800000#32 = (⊥ : EReal) := by
  simp [Ideal.ofBits, Ideal.ieee]

/-- A maximum folded from -∞ over a finite family is -∞ on the empty family and otherwise one of its members. -/
theorem fold_max_mem {ι : Type*} [DecidableEq ι] (g : ι → EReal) (s : Finset ι) :
    (s.fold max (⊥ : EReal) g = ⊥ ∧ s = ∅) ∨ ∃ i ∈ s, s.fold max (⊥ : EReal) g = g i := by
  induction s using Finset.induction_on with
  | empty => left; exact ⟨Finset.fold_empty, rfl⟩
  | insert a s ha ih =>
    right
    rw [Finset.fold_insert ha]
    rcases ih with ⟨h, _⟩ | ⟨i, hi, h⟩
    · exact ⟨a, Finset.mem_insert_self _ _, by rw [h]; exact max_bot_right _⟩
    · rcases le_total (g a) (g i) with hle | hle
      · exact ⟨i, Finset.mem_insert_of_mem hi, by rw [h, max_eq_right hle]⟩
      · exact ⟨a, Finset.mem_insert_self _ _, by rw [h, max_eq_left hle]⟩

/-- Over a nonempty range of reals the maximum folded from -∞ is a real. -/
theorem fold_max_real {n : ℕ} [NeZero n] (f : Fin n → ℝ) :
    ∃ c : ℝ, (Finset.univ : Finset (Fin n)).fold max (⊥ : EReal) (fun k => ((f k : ℝ) : EReal)) = (c : EReal) := by
  rcases fold_max_mem (fun k : Fin n => ((f k : ℝ) : EReal)) Finset.univ with ⟨_, h⟩ | ⟨i, _, h⟩
  · exact absurd h (Finset.univ_nonempty (α := Fin n)).ne_empty
  · exact ⟨f i, h⟩

end Cert.Poly

end
-- ==== Proof.LibDotNT.lean ====
/-
  A matrix product with the right operand contracted on its last axis, read at an entry.

  For the dimension numbers ⟨[1], [1], [0], [0], [], []⟩ (an M×K operand times an N×K operand, no batch axis: the
  product with the right operand transposed), the product accumulated into a zero array has, at entry (p, q), the value
  Σ_k lhs (p, k) · rhs (q, k) on the extended reals: no rounding and no order of summation is left in it. The statement is
  generic in the three extents and in the operands' float formats (a change of format is the identity on the extended
  reals); a printed dimension record with these six lists IS `DotDims.transposedRhs M K N` (its well-formedness proof is
  a proposition), so the lemma applies to it as it stands.
-/
import Idealize.ShloMosaic.PureOps.Ideal.Laws
import Idealize.ShloMosaic.Lib.ValueIdx

namespace Idealize.ShloMosaic.DotNT

open Idealize.ShloMosaic Idealize.ShloMosaic.ValueIdx

/-- The left operand's row coordinate at output entry i is i's row. -/
theorem lhs_row (M K N : Nat) (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction index. -/
theorem lhs_col (M K N : Nat) (i : (⟨2, ![M, N]⟩ : Shape).Idx) (c : (DotDims.transposedRhs M K N).contr.Idx) :
    ((DotDims.transposedRhs M K N).lhsIdx i c 1).val = (c ⟨0, Nat.one_pos⟩).val :=
  (DotDims.transposedRhs M K N).lhsIdx_val_of_single rfl i c

/-- The right operand's row coordinate at output entry i is i's column. -/
theorem rhs_row (M K N : Nat) (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction index. -/
theorem rhs_col (M K N : Nat) (i : (⟨2, ![M, N]⟩ : Shape).Idx) (c : (DotDims.transposedRhs M K N).contr.Idx) :
    ((DotDims.transposedRhs M K N).rhsIdx i c 1).val = (c ⟨0, Nat.one_pos⟩).val :=
  (DotDims.transposedRhs M K N).rhsIdx_val_of_single rfl i c

/-- An M×K by N×K product into the zero array, at entry (p, q), is Σ_k lhs (p, k) · rhs (q, k). -/
theorem matmul_zero_apply {φ₁ φ₂ : FTy} (M K N : Nat) (lhs : FVec Ideal ⟨2, ![M, K]⟩ φ₁) (rhs : FVec Ideal ⟨2, ![N, K]⟩ φ₂)
    (p : Fin M) (q : Fin N) :
    FloatOps.matmul (DotDims.transposedRhs M K N) none lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row M K N _ _
      | ⟨1, _⟩ => exact (rhs_col M K N _ _).trans hk)
  rw [el, er]

end Idealize.ShloMosaic.DotNT
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KernelChain.lean ====
/-
  One sub-batch's chain of operations, and its value on real operands.

  A grid step holds four batch elements; for each the body computes, from the code table and that element's context
  and candidate matrices, the candidates' scores. The four chains are one function of (table, context matrix,
  candidate matrix), cut into stages here:
    logits   L m s = Σ_d w m d · c s d                       (a product with the right operand transposed)
    codes    e m d = (Σ_s exp (L m s) · c s d) / Σ_s exp (L m s)
    logits'  T m r = Σ_d e m d · q r d                       (again with the right operand transposed)
    scores   (Σ_m exp (T m r - max_m T m r) · T m r) / Σ_m exp (T m r - max_m T m r).
  On operands whose entries are real numbers every stage's entries are real numbers: the exponentials are positive, so
  both divisors are positive sums, and the column maximum, taken from -∞ over 64 reals, is one of them. The last stage
  is then the exponentially weighted mean of T · r over the codes, which does not depend on the constant subtracted in
  the exponent: the chain's entry r is candidate r's score.
-/
import proofs.«114482_g12025908429422_cont_fleet_699_15_alg».proof.Proof.Gen.KernelIdeal.Frame
import proofs.«114482_g12025908429422_cont_fleet_699_15_alg».proof.Proof.Spec
import proofs.«114482_g12025908429422_cont_fleet_699_15_alg».proof.Proof.Lift
import proofs.«114482_g12025908429422_cont_fleet_699_15_alg».proof.Proof.LibDotNT
import proofs.«114482_g12025908429422_cont_fleet_699_15_alg».proof.Proof.LibPlainDot
import Idealize.ShloMosaic.Lib.Pipeline.Value
import Idealize.ShloMosaic.Lib.ValueLayout

noncomputable section

open scoped BigOperators

namespace Cert.KernelIdeal.PolyBlock

open Idealize.ShloMosaic Idealize.ShloMosaic.ValueIdx Cert.KernelIdeal Cert.KernelIdeal.Gen Cert.Poly

/-! ## Layout operations read at an entry -/

section Layout
variable {α : Type}

/-- A vector cast to a column reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a [1, 1, a] block reads, at (0, 0, i), the vector at i. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

end Layout

/-! ## The chain, stage by stage -/

section Stages
variable {F : FTy → Type} [FloatOps F]

/-- The logits of the code table against a context matrix. -/
def stageLogits (v0 : FVec F S64x768 .f32) (c : FVec F S512x768 .f32) : FVec F S64x512 .f32 :=
  matmul dot_S64x768_S512x768_S64x512_1_1_0_0_n_n none v0 c (constant S64x512 .f32 0x00000000#32)

/-- The codes' context embeddings: the exponentials' product with the context matrix, each row divided by its sum. -/
def stageCodes (v0 : FVec F S64x768 .f32) (c : FVec F S512x768 .f32) : FVec F S64x768 .f32 :=
  divf (matmul dot_S64x512_S512x768_S64x768_1_0_0_1_n_n none (exp (stageLogits v0 c)) c (constant S64x768 .f32 0x00000000#32))
    (broadcastTo S64x768 (shapeCast S64x1 (multiReduction .add [1] S64 (exp (stageLogits v0 c)) 0x00000000#32 reduces_S64x512_S64 (.inl rfl) rfl)
      shapeCasts_S64_S64x1) broadcasts_S64x1_S64x768)

/-- The logits of the embeddings against a candidate matrix, codes along the rows. -/
def stageLogits' (e : FVec F S64x768 .f32) (q : FVec F S1024x768 .f32) : FVec F S64x1024 .f32 :=
  matmul dot_S64x768_S1024x768_S64x1024_1_1_0_0_n_n none e q (constant S64x1024 .f32 0x00000000#32)

/-- The shifted exponentials of the second logits: each column less its maximum, exponentiated. -/
def stageWeights (t : FVec F S64x1024 .f32) : FVec F S64x1024 .f32 :=
  exp (subf t (broadcastTo S64x1024 (shapeCast S1x1024 (multiReduction .maximumf [0] S1024 t 0xFF800000#32 reduces_S64x1024_S1024 (.inl rfl) rfl)
    shapeCasts_S1024_S1x1024) broadcasts_S1x1024_S64x1024))

/-- The scores: the weighted column sums of the logits over the column sums of the weights. -/
def stageScores (t : FVec F S64x1024 .f32) : FVec F S1024 .f32 :=
  divf (multiReduction .add [0] S1024 (mulf (stageWeights t) t) 0x00000000#32 reduces_S64x1024_S1024 (.inl rfl) rfl)
    (multiReduction .add [0] S1024 (stageWeights t) 0x00000000#32 reduces_S64x1024_S1024 (.inl rfl) rfl)

/-- One sub-batch's whole chain, from the loaded table and the two loaded [1, ·, 768] slices. -/
def chain (v0 : Vec F S64x768 .f32) (c1 : Vec F S1x512x768 .f32) (q1 : Vec F S1x1024x768 .f32) : FVec F S1024 .f32 :=
  stageScores (stageLogits' (stageCodes v0 (shapeCast S512x768 c1 shapeCasts_S1x512x768_S512x768))
    (shapeCast S1024x768 q1 shapeCasts_S1x1024x768_S1024x768))

/-- The four stored payloads are the chain of their sub-batch, cast to a [1, 1, 1024] row. -/
theorem pay3_eq (v0 : Vec F S64x768 .f32) (c1 : Vec F S1x512x768 .f32) (q1 : Vec F S1x1024x768 .f32) :
    k0_pay3 v0 c1 q1 = shapeCast S1x1x1024 (chain v0 c1 q1) shapeCasts_S1024_S1x1x1024 := rfl
theorem pay8_eq (v0 : Vec F S64x768 .f32) (c1 : Vec F S1x512x768 .f32) (q1 : Vec F S1x1024x768 .f32) :
    k0_pay8 (k0_pay4 c1) (k0_pay5 q1) (k0_pay6 v0 c1) (k0_pay7 v0 c1) = shapeCast S1x1x1024 (chain v0 c1 q1) shapeCasts_S1024_S1x1x1024 := rfl
theorem pay19_eq (v0 : Vec F S64x768 .f32) (c1 : Vec F S1x512x768 .f32) (q1 : Vec F S1x1024x768 .f32) :
    k0_pay1 (k0_pay9 v0 c1 q1) = shapeCast S1x1x1024 (chain v0 c1 q1) shapeCasts_S1024_S1x1x1024 := rfl
theorem pay2_eq (v0 : Vec F S64x768 .f32) (c1 : Vec F S1x512x768 .f32) (q1 : Vec F S1x1024x768 .f32) :
    k0_pay2 v0 c1 q1 = shapeCast S1x1x1024 (chain v0 c1 q1) shapeCasts_S1024_S1x1x1024 := rfl

end Stages

/-! ## The stages on real operands -/

section Real
variable (w : Fin 64 → Fin 768 → ℝ) (c : Fin 512 → Fin 768 → ℝ) (q : Fin 1024 → Fin 768 → ℝ)
variable (v0 : FVec Ideal S64x768 .f32) (vc : FVec Ideal S512x768 .f32) (vq : FVec Ideal S1024x768 .f32)

theorem logits_real (hw : ∀ m d, v0 (ix2 m d) = ((w m d : ℝ) : EReal)) (hc : ∀ s d, vc (ix2 s d) = ((c s d : ℝ) : EReal))
    (m : Fin 64) (s : Fin 512) : stageLogits v0 vc (ix2 m s) = ((logit1 w c m s : ℝ) : EReal) := by
  unfold stageLogits
  show FloatOps.matmul (DotDims.transposedRhs 64 768 512) none v0 vc (constant ⟨2, ![64, 512]⟩ .f32 0x00000000#32) (ix2 m s) = _
  rw [DotNT.matmul_zero_apply]
  simp only [hw, hc, ← EReal.coe_mul]
  rw [sum_coe]
  rfl

theorem expLogits_real (hw : ∀ m d, v0 (ix2 m d) = ((w m d : ℝ) : EReal)) (hc : ∀ s d, vc (ix2 s d) = ((c s d : ℝ) : EReal))
    (m : Fin 64) (s : Fin 512) : exp (stageLogits v0 vc) (ix2 m s) = ((Real.exp (logit1 w c m s) : ℝ) : EReal) := by
  show Ideal.exp (stageLogits v0 vc (ix2 m s)) = _
  rw [logits_real w c v0 vc hw hc]
  rfl

theorem rowSum_real (hw : ∀ m d, v0 (ix2 m d) = ((w m d : ℝ) : EReal)) (hc : ∀ s d, vc (ix2 s d) = ((c s d : ℝ) : EReal))
    (m : Fin 64) :
    multiReduction .add [1] S64 (exp (stageLogits v0 vc)) 0x00000000#32 reduces_S64x512_S64 (.inl rfl) rfl (ix1 m)
      = ((∑ s : Fin 512, Real.exp (logit1 w c m s) : ℝ) : EReal) := by
  refine (Ideal.multiReduction_add_single (exp (stageLogits v0 vc)) 0x00000000#32 reduces_S64x512_S64 (.inl rfl) rfl (ix1 m)).trans ?_
  rw [← sum_coe]
  refine Finset.sum_congr rfl fun s _ => ?_
  rw [← expLogits_real w c v0 vc hw hc m s]
  exact congrArg _ (funext fun a => Fin.ext (by match a with | ⟨0, _⟩ => rfl | ⟨1, _⟩ => rfl))

theorem codes_real (hw : ∀ m d, v0 (ix2 m d) = ((w m d : ℝ) : EReal)) (hc : ∀ s d, vc (ix2 s d) = ((c s d : ℝ) : EReal))
    (m : Fin 64) (d : Fin 768) : stageCodes v0 vc (ix2 m d) = ((emb w c m d : ℝ) : EReal) := by
  unfold stageCodes
  rw [divf_apply]
  have hN : matmul dot_S64x512_S512x768_S64x768_1_0_0_1_n_n none (exp (stageLogits v0 vc)) vc (constant S64x768 .f32 0x00000000#32) (ix2 m d)
      = ((∑ s : Fin 512, Real.exp (logit1 w c m s) * c s d : ℝ) : EReal) := by
    show FloatOps.matmul (DotDims.plain 64 512 768) none (exp (stageLogits v0 vc)) vc (constant ⟨2, ![64, 768]⟩ .f32 0x00000000#32) (ix2 m d) = _
    rw [PlainDot.matmul_zero_apply]
    simp only [expLogits_real w c v0 vc hw hc, hc, ← EReal.coe_mul]
    rw [sum_coe]
  rw [hN, broadcastTo_a1_ab_apply, shapeCast_a_a1_apply, rowSum_real w c v0 vc hw hc m,
    div_coe_coe _ (sum_exp_pos (logit1 w c m)).ne']
  rfl

theorem logits'_real (e : Fin 64 → Fin 768 → ℝ) (ve : FVec Ideal S64x768 .f32)
    (he : ∀ m d, ve (ix2 m d) = ((e m d : ℝ) : EReal)) (hq : ∀ r d, vq (ix2 r d) = ((q r d : ℝ) : EReal))
    (m : Fin 64) (r : Fin 1024) : stageLogits' ve vq (ix2 m r) = ((∑ d : Fin 768, e m d * q r d : ℝ) : EReal) := by
  unfold stageLogits'
  show FloatOps.matmul (DotDims.transposedRhs 64 768 1024) none ve vq (constant ⟨2, ![64, 1024]⟩ .f32 0x00000000#32) (ix2 m r) = _
  rw [DotNT.matmul_zero_apply]
  simp only [he, hq, ← EReal.coe_mul]
  rw [sum_coe]

/-- On a real matrix the column maximum taken from -∞ is a real number. -/
theorem colMax_real (T : Fin 64 → Fin 1024 → ℝ) (vt : FVec Ideal S64x1024 .f32)
    (ht : ∀ m r, vt (ix2 m r) = ((T m r : ℝ) : EReal)) (r : Fin 1024) :
    ∃ b : ℝ, multiReduction .maximumf [0] S1024 vt 0xFF800000#32 reduces_S64x1024_S1024 (.inl rfl) rfl (ix1 r) = ((b : ℝ) : EReal) := by
  have hfold := Ideal.multiReduction_maximumf_single vt 0xFF800000#32 reduces_S64x1024_S1024 (.inl rfl) rfl (ix1 r)
  obtain ⟨b, hb⟩ := fold_max_real (fun m : Fin 64 => T m r)
  have hsrc : (vt ∘ reduces_S64x1024_S1024.lift (ix1 r)) = fun m : Fin 64 => ((T m r : ℝ) : EReal) := by
    funext m
    rw [← ht m r]
    exact congrArg vt (funext fun a => Fin.ext (by match a with | ⟨0, _⟩ => rfl | ⟨1, _⟩ => rfl))
  refine ⟨b, hfold.trans ?_⟩
  rw [hsrc, ← hb]
  exact congrArg (fun z : EReal => (Finset.univ : Finset (Fin 64)).fold max z (fun m : Fin 64 => ((T m r : ℝ) : EReal))) ofBits_neg_inf

theorem scores_real (T : Fin 64 → Fin 1024 → ℝ) (vt : FVec Ideal S64x1024 .f32)
    (ht : ∀ m r, vt (ix2 m r) = ((T m r : ℝ) : EReal)) (r : Fin 1024) :
    stageScores vt (ix1 r) = ((wmean (fun m => T m r) (fun m => T m r) : ℝ) : EReal) := by
  obtain ⟨b, hb⟩ := colMax_real T vt ht r
  have hW : ∀ m, stageWeights vt (ix2 m r) = ((Real.exp (T m r - b) : ℝ) : EReal) := fun m => by
    unfold stageWeights
    show Ideal.exp (vt (ix2 m r) - broadcastTo S64x1024 _ broadcasts_S1x1024_S64x1024 (ix2 m r)) = _
    rw [broadcastTo_1b_ab_apply, shapeCast_a_1a_apply, hb, ht, ← EReal.coe_sub]
    rfl
  unfold stageScores
  have hnum : multiReduction .add [0] S1024 (mulf (stageWeights vt) vt) 0x00000000#32 reduces_S64x1024_S1024 (.inl rfl) rfl (ix1 r)
      = ((∑ m : Fin 64, Real.exp (T m r - b) * T m r : ℝ) : EReal) := by
    refine (Ideal.multiReduction_add_single (mulf (stageWeights vt) vt) 0x00000000#32 reduces_S64x1024_S1024 (.inl rfl) rfl (ix1 r)).trans ?_
    show ∑ m : Fin 64, mulf (stageWeights vt) vt (reduces_S64x1024_S1024.lift (ix1 r) m) = _
    rw [← sum_coe]
    refine Finset.sum_congr rfl fun m _ => ?_
    have e : reduces_S64x1024_S1024.lift (ix1 r) m = ix2 m r :=
      funext fun a => Fin.ext (by match a with | ⟨0, _⟩ => rfl | ⟨1, _⟩ => rfl)
    rw [e]
    show stageWeights vt (ix2 m r) * vt (ix2 m r) = _
    rw [hW m, ht m r, ← EReal.coe_mul]
  have hden : multiReduction .add [0] S1024 (stageWeights vt) 0x00000000#32 reduces_S64x1024_S1024 (.inl rfl) rfl (ix1 r)
      = ((∑ m : Fin 64, Real.exp (T m r - b) : ℝ) : EReal) := by
    refine (Ideal.multiReduction_add_single (stageWeights vt) 0x00000000#32 reduces_S64x1024_S1024 (.inl rfl) rfl (ix1 r)).trans ?_
    show ∑ m : Fin 64, stageWeights vt (reduces_S64x1024_S1024.lift (ix1 r) m) = _
    rw [← sum_coe]
    refine Finset.sum_congr rfl fun m _ => ?_
    have e : reduces_S64x1024_S1024.lift (ix1 r) m = ix2 m r :=
      funext fun a => Fin.ext (by match a with | ⟨0, _⟩ => rfl | ⟨1, _⟩ => rfl)
    rw [e]
    exact hW m
  refine (congrArg₂ Ideal.div hnum hden).trans ?_
  rw [div_coe_coe _ (sum_exp_pos (fun m : Fin 64 => T m r - b)).ne', wmean_shift]

end Real

/-! ## One sub-batch, and the block -/

/-- The chain on a real table and real [1, ·, 768] slices is the score. -/
theorem chain_real (w : Fin 64 → Fin 768 → ℝ) (c : Fin 512 → Fin 768 → ℝ) (q : Fin 1024 → Fin 768 → ℝ)
    (v0 : Vec Ideal S64x768 .f32) (c1 : Vec Ideal S1x512x768 .f32) (q1 : Vec Ideal S1x1024x768 .f32)
    (hw : ∀ m d, v0 (ix2 m d) = ((w m d : ℝ) : EReal)) (hc : ∀ s d, c1 (ix3 (0 : Fin 1) s d) = ((c s d : ℝ) : EReal))
    (hq : ∀ r d, q1 (ix3 (0 : Fin 1) r d) = ((q r d : ℝ) : EReal)) (r : Fin 1024) :
    chain (F := Ideal) v0 c1 q1 (ix1 r) = ((score w c q r : ℝ) : EReal) := by
  unfold chain
  have hc' : ∀ s d, shapeCast S512x768 c1 shapeCasts_S1x512x768_S512x768 (ix2 s d) = ((c s d : ℝ) : EReal) := fun s d => by
    rw [shapeCast_1ab_ab_apply, hc]
  have hq' : ∀ r d, shapeCast S1024x768 q1 shapeCasts_S1x1024x768_S1024x768 (ix2 r d) = ((q r d : ℝ) : EReal) := fun r d => by
    rw [shapeCast_1ab_ab_apply, hq]
  have hT := logits'_real q _ (emb w c) _ (codes_real w c v0 _ hw hc') hq'
  rw [scores_real (fun m r => ∑ d : Fin 768, emb w c m d * q r d) _ hT r]
  rfl

end Cert.KernelIdeal.PolyBlock

end
-- ==== Proof.KernelBlock.lean ====
/-
  What one grid step leaves in the output block.

  The body stores four rows into the [1, 4, 1024] output block, row k holding the chain of sub-batch k: the code
  table, and the k-th [1, 512, 768] and [1, 1024, 768] slices of the step's context and candidate blocks. The four
  rows tile the block, each is the same function of the block index (row k, column r ↦ candidate r's score for
  sub-batch k), so the block as a whole is that function; on blocks whose entries are real numbers its entry
  (0, k, r) is the real score.
-/
import proofs.«114482_g12025908429422_cont_fleet_699_15_alg».proof.Proof.KernelChain

noncomputable section

open scoped BigOperators

namespace Cert.KernelIdeal.PolyBlock

open Idealize.ShloMosaic Idealize.ShloMosaic.ValueIdx Cert.KernelIdeal Cert.KernelIdeal.Gen Cert.Poly

/-- The block as one function of its index: at (·, k, r), candidate r's score for sub-batch k. -/
def blockFn (x0 : Vec Ideal S4x512x768 .f32) (x1 : Vec Ideal S4x1024x768 .f32) (x2 : Vec Ideal S64x768 .f32) :
    S1x4x1024.Idx → EReal := fun y =>
  ((score (fun m d => (x2 (ix2 m d)).toReal) (fun s d => (x0 (ix3 (n0 := 4) (n1 := 512) (n2 := 768) (y 1) s d)).toReal)
      (fun q d => (x1 (ix3 (n0 := 4) (n1 := 1024) (n2 := 768) (y 1) q d)).toReal) (y 2) : ℝ) : EReal)

/-- The row stored for sub-batch kn (its context and candidate slices loaded at offset kn of the blocks' first axis) is,
    at column i, candidate i's score for that sub-batch. -/
theorem row_agrees (x0 : Vec Ideal S4x512x768 .f32) (x1 : Vec Ideal S4x1024x768 .f32) (x2 : Vec Ideal S64x768 .f32)
    (h0 : IsReal x0) (h1 : IsReal x1) (h2 : IsReal x2) (kn : ℕ) (hk : kn < 4)
    (inbc : ∀ a, (![kn, 0, 0] : Fin 3 → ℕ) a + S1x512x768.size a ≤ S4x512x768.size a)
    (inbq : ∀ a, (![kn, 0, 0] : Fin 3 → ℕ) a + S1x1024x768.size a ≤ S4x1024x768.size a)
    (u v : Fin 1) (i : Fin 1024) :
    shapeCast S1x1x1024 (chain (F := Ideal) (View.ld x2 r0_0)
        (View.ld x0 (Rect.unit (s := S4x512x768) ![kn, 0, 0] S1x512x768.size inbc))
        (View.ld x1 (Rect.unit (s := S4x1024x768) ![kn, 0, 0] S1x1024x768.size inbq))) shapeCasts_S1024_S1x1x1024 (ix3 u v i)
      = blockFn x0 x1 x2 (ix3 (0 : Fin 1) (⟨kn, hk⟩ : Fin 4) i) := by
  have hz : (![0, 0] : Fin 2 → ℕ) = fun _ => 0 := by funext a; fin_cases a <;> rfl
  have hl : View.ld x2 r0_0 = x2 := View.ld_unit_zero (S := S64x768) hz _ x2
  refine (shapeCast_a_11a_apply _ _ u v i).trans ?_
  rw [hl]
  have hembc : ∀ (s : Fin 512) (d : Fin 768),
      (Rect.unit (s := S4x512x768) ![kn, 0, 0] S1x512x768.size inbc).emb (ix3 (0 : Fin 1) s d) = ix3 (⟨kn, hk⟩ : Fin 4) s d :=
    fun s d => funext fun a => Fin.ext (by
      match a with
      | ⟨0, _⟩ => show kn + 1 * 0 = kn; omega
      | ⟨1, _⟩ => show 0 + 1 * s.val = s.val; omega
      | ⟨2, _⟩ => show 0 + 1 * d.val = d.val; omega)
  have hembq : ∀ (q : Fin 1024) (d : Fin 768),
      (Rect.unit (s := S4x1024x768) ![kn, 0, 0] S1x1024x768.size inbq).emb (ix3 (0 : Fin 1) q d) = ix3 (⟨kn, hk⟩ : Fin 4) q d :=
    fun q d => funext fun a => Fin.ext (by
      match a with
      | ⟨0, _⟩ => show kn + 1 * 0 = kn; omega
      | ⟨1, _⟩ => show 0 + 1 * q.val = q.val; omega
      | ⟨2, _⟩ => show 0 + 1 * d.val = d.val; omega)
  exact chain_real (fun m d => (x2 (ix2 m d)).toReal) (fun s d => (x0 (ix3 (⟨kn, hk⟩ : Fin 4) s d)).toReal)
    (fun q d => (x1 (ix3 (⟨kn, hk⟩ : Fin 4) q d)).toReal) x2 _ _ (fun m d => h2.eq_coe _)
    (fun s d => (congrArg x0 (hembc s d)).trans (h0.eq_coe _))
    (fun q d => (congrArg x1 (hembq q d)).trans (h1.eq_coe _)) i

/-- The row's rectangle (offset kn on the block's second axis) places column i of the row at (0, kn, i) of the block. -/
theorem row_emb (kn : ℕ) (hk : kn < 4)
    (inbo : ∀ a, (![0, kn, 0] : Fin 3 → ℕ) a + S1x1x1024.size a ≤ S1x4x1024.size a) (u v : Fin 1) (i : Fin 1024) :
    (Rect.unit (s := S1x4x1024) ![0, kn, 0] S1x1x1024.size inbo).emb (ix3 u v i) = ix3 (0 : Fin 1) (⟨kn, hk⟩ : Fin 4) i :=
  funext fun a => Fin.ext (by
    have hu : u.val = 0 := by omega
    have hv : v.val = 0 := by omega
    match a with
    | ⟨0, _⟩ => show 0 + 1 * u.val = 0; omega
    | ⟨1, _⟩ => show kn + 1 * v.val = kn; omega
    | ⟨2, _⟩ => show 0 + 1 * i.val = i.val; omega)

/-- Entry (0, k, r) of the output block after the body is candidate r's score for sub-batch k of the input blocks. -/
theorem out_entry (x0 : Vec Ideal S4x512x768 .f32) (x1 : Vec Ideal S4x1024x768 .f32) (x2 : Vec Ideal S64x768 .f32)
    (h0 : IsReal x0) (h1 : IsReal x1) (h2 : IsReal x2) (k : Fin 4) (r : Fin 1024) :
    out0_3 x0 x1 x2 (ix3 (0 : Fin 1) k r)
      = ((score (fun m d => (x2 (ix2 m d)).toReal) (fun s d => (x0 (ix3 k s d)).toReal)
          (fun q d => (x1 (ix3 k q d)).toReal) r : ℝ) : EReal) := by
  unfold out0_3
  rw [pay2_eq, pay19_eq, pay8_eq, pay3_eq]
  refine (View.canon_apply_of_pieces (blockFn x0 x1 x2) _ ?_ (ix3 (0 : Fin 1) k r) (cover0_3 _ _ _ _ _)).trans rfl
  intro p hp
  simp only [List.mem_cons, List.mem_nil_iff, or_false] at hp
  rcases hp with rfl | rfl | rfl | rfl
  · intro x
    obtain ⟨u, v, i, rfl⟩ : ∃ (u v : Fin 1) (i : Fin 1024), x = ix3 u v i := ⟨x 0, x 1, x 2, eq_ix3 x⟩
    refine (row_agrees x0 x1 x2 h0 h1 h2 3 (by omega) _ _ u v i).trans ?_
    exact congrArg (blockFn x0 x1 x2) (row_emb 3 (by omega) (by decide) u v i).symm
  · intro x
    obtain ⟨u, v, i, rfl⟩ : ∃ (u v : Fin 1) (i : Fin 1024), x = ix3 u v i := ⟨x 0, x 1, x 2, eq_ix3 x⟩
    refine (row_agrees x0 x1 x2 h0 h1 h2 2 (by omega) _ _ u v i).trans ?_
    exact congrArg (blockFn x0 x1 x2) (row_emb 2 (by omega) (by decide) u v i).symm
  · intro x
    obtain ⟨u, v, i, rfl⟩ : ∃ (u v : Fin 1) (i : Fin 1024), x = ix3 u v i := ⟨x 0, x 1, x 2, eq_ix3 x⟩
    refine (row_agrees x0 x1 x2 h0 h1 h2 1 (by omega) _ _ u v i).trans ?_
    exact congrArg (blockFn x0 x1 x2) (row_emb 1 (by omega) (by decide) u v i).symm
  · intro x
    obtain ⟨u, v, i, rfl⟩ : ∃ (u v : Fin 1) (i : Fin 1024), x = ix3 u v i := ⟨x 0, x 1, x 2, eq_ix3 x⟩
    refine (row_agrees x0 x1 x2 h0 h1 h2 0 (by omega) _ _ u v i).trans ?_
    exact congrArg (blockFn x0 x1 x2) (row_emb 0 (by omega) (by decide) u v i).symm

end Cert.KernelIdeal.PolyBlock

end
-- ==== Proof.KernelArray.lean ====
/-
  From one grid step's output block to the whole result array.

  The grid has eight steps. Step t holds batch elements 4t, 4t+1, 4t+2, 4t+3: its context block is rows 4t … 4t+3 of
  the context array, its candidate block the same rows of the candidate array, and its code block is the whole code
  table. What step t leaves is slab t of an [8, 4, 1024] array whose entry (t, k, r) is candidate r's score in batch
  element 4t + k. The eight slabs tile that array, and read in row-major order as [32, 1024] it is the score array:
  row b of the latter is (b / 4, b % 4) of the former, and 4 · (b / 4) + b % 4 = b.
-/
import proofs.«114482_g12025908429422_cont_fleet_699_15_alg».proof.Proof.Gen.KernelIdeal.Frame
import proofs.«114482_g12025908429422_cont_fleet_699_15_alg».proof.Proof.KernelBlock
import Idealize.ShloMosaic.Lib.Pipeline.Value
import Idealize.ShloMosaic.Lib.ValueIdx
import Idealize.ShloMosaic.Lib.ValueLayout

noncomputable section

namespace Cert.KernelIdeal.PolyValue

open Cert.KernelIdeal Cert.KernelIdeal.Gen Cert.Poly
open Idealize.ShloMosaic Idealize.ShloMosaic.TcCoe Idealize.SL.Sem Idealize.ShloMosaic.ValueIdx
open Idealize.ShloMosaic.Pipeline (Dat)

/-! ## The result step by step, and its rows -/

/-- Sub-batch k of step t is batch element 4t + k. -/
def stepBatch (t : Fin 8) (k : Fin 4) : Fin 32 := ⟨4 * t.val + k.val, by have := t.isLt; have := k.isLt; omega⟩

/-- The scores laid out by step: entry (t, k, r) is candidate r's score in batch element 4t + k. -/
def stepScores (ctx : S32x512x768.Idx → EReal) (cand : S32x1024x768.Idx → EReal) (w : S64x768.Idx → EReal) :
    S8x4x1024.Idx → EReal :=
  fun i => ((score (wR w) (ctxR ctx (stepBatch (i 0) (i 1))) (candR cand (stepBatch (i 0) (i 1))) (i 2) : ℝ) : EReal)

/-- The score depends on its three matrices only through their values. -/
theorem score_congr {M S R D : ℕ} {w w' : Fin M → Fin D → ℝ} {x x' : Fin S → Fin D → ℝ} {y y' : Fin R → Fin D → ℝ}
    (hw : w = w') (hx : x = x') (hy : y = y') (r : Fin R) : score w x y r = score w' x' y' r := by
  subst hw hx hy; rfl

/-- Read in row-major order as [32, 1024], the scores laid out by step are the score array: row b is sub-batch b % 4
    of step b / 4. -/
theorem rows_of_stepScores (ctx : S32x512x768.Idx → EReal) (cand : S32x1024x768.Idx → EReal) (w : S64x768.Idx → EReal)
    (h : S8x4x1024.ShapeCasts S32x1024) : shapeCast S32x1024 (stepScores ctx cand w) h = G ctx cand w := by
  funext i
  have hb : (i 0).val < 32 := (i 0).isLt
  refine (shapeCast_apply (stepScores ctx cand w) h i
    (ix3 (⟨(i 0).val / 4, by omega⟩ : Fin 8) (⟨(i 0).val % 4, by omega⟩ : Fin 4) (i 1)) ?_).trans ?_
  · rw [Shape.rowMajor_val_three, Shape.rowMajor_val_two]
    show ((i 0).val / 4 * 4 + (i 0).val % 4) * 1024 + (i 1).val = (i 0).val * 1024 + (i 1).val
    omega
  · have e : stepBatch (⟨(i 0).val / 4, by omega⟩ : Fin 8) (⟨(i 0).val % 4, by omega⟩ : Fin 4) = i 0 :=
      Fin.ext (Nat.div_add_mod (i 0).val 4)
    exact congrArg (fun b : Fin 32 => ((score (wR w) (ctxR ctx b) (candR cand b) (i 1) : ℝ) : EReal)) e

/-! ## The arrays and the blocks -/

variable (m : (ℓ : Loc nD τ sig) → Buf (Elt Ideal) ℓ) (ρ : Dev nD → PrngReg)

/-- The context array. -/
abbrev ctxA (c : Dev nD) : Vec Ideal S32x512x768 .f32 := m ((c.tc : Thread nD τ).loc main_arg0)
/-- The candidate array. -/
abbrev candA (c : Dev nD) : Vec Ideal S32x1024x768 .f32 := m ((c.tc : Thread nD τ).loc main_arg1)
/-- The code table. -/
abbrev codeA (c : Dev nD) : Vec Ideal S64x768 .f32 := m ((c.tc : Thread nD τ).loc main_arg2)

/-- Step t's context block. -/
abbrev ctxBlk (c : Dev nD) (t : Fin cfg0.N) : Vec Ideal S4x512x768 .f32 := iblk m c 0 t
/-- Step t's candidate block. -/
abbrev candBlk (c : Dev nD) (t : Fin cfg0.N) : Vec Ideal S4x1024x768 .f32 := iblk m c 1 t
/-- Step t's code block. -/
abbrev codeBlk (c : Dev nD) (t : Fin cfg0.N) : Vec Ideal S64x768 .f32 := iblk m c 2 t

/-- Where each block sits at step t: the context, candidate and result blocks at t on the batch axis and at 0 on the
    others, the code block at 0. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem step_lt (t : Fin cfg0.N) : t.val < 8 := by
  have hN : cfg0.N = 8 := N_0
  have := t.isLt
  omega

/-- Entry (k, s, d) of step t's context block is entry (4t + k, s, d) of the context array. -/
theorem ctxBlk_apply (c : Dev nD) (t : Fin cfg0.N) (k : Fin 4) (s : Fin 512) (d : Fin 768) :
    ctxBlk m c t (ix3 k s d) = ctxA m c (ix3 (stepBatch ⟨t.val, step_lt t⟩ k) s d) := by
  obtain ⟨e0, e1, e2, -⟩ := block_index t
  show ctxA m c (((cfg0.win 0).blk t).view.emb (ix3 k s d)) = ctxA m c (ix3 (stepBatch ⟨t.val, step_lt t⟩ k) s d)
  refine congrArg (ctxA m c) (funext fun a => Fin.ext ?_)
  match a with
  | ⟨0, _⟩ => show win0_0.index t (0 : Fin 3) * 4 + 1 * k.val = 4 * t.val + k.val; omega
  | ⟨1, _⟩ => show win0_0.index t (1 : Fin 3) * 512 + 1 * s.val = s.val; omega
  | ⟨2, _⟩ => show win0_0.index t (2 : Fin 3) * 768 + 1 * d.val = d.val; omega

/-- Entry (k, q, d) of step t's candidate block is entry (4t + k, q, d) of the candidate array. -/
theorem candBlk_apply (c : Dev nD) (t : Fin cfg0.N) (k : Fin 4) (q : Fin 1024) (d : Fin 768) :
    candBlk m c t (ix3 k q d) = candA m c (ix3 (stepBatch ⟨t.val, step_lt t⟩ k) q d) := by
  obtain ⟨-, -, -, e0, e1, e2, -⟩ := block_index t
  show candA m c (((cfg0.win 1).blk t).view.emb (ix3 k q d)) = candA m c (ix3 (stepBatch ⟨t.val, step_lt t⟩ k) q d)
  refine congrArg (candA m c) (funext fun a => Fin.ext ?_)
  match a with
  | ⟨0, _⟩ => show win0_1.index t (0 : Fin 3) * 4 + 1 * k.val = 4 * t.val + k.val; omega
  | ⟨1, _⟩ => show win0_1.index t (1 : Fin 3) * 1024 + 1 * q.val = q.val; omega
  | ⟨2, _⟩ => show win0_1.index t (2 : Fin 3) * 768 + 1 * d.val = d.val; omega

/-- Every step's code block is the code table. -/
theorem codeBlk_apply (c : Dev nD) (t : Fin cfg0.N) (j : Fin 64) (d : Fin 768) :
    codeBlk m c t (ix2 j d) = codeA m c (ix2 j d) := by
  obtain ⟨-, -, -, -, -, -, e0, e1, -⟩ := block_index t
  show codeA m c (((cfg0.win 2).blk t).view.emb (ix2 j d)) = codeA m c (ix2 j d)
  refine congrArg (codeA m c) (funext fun a => Fin.ext ?_)
  match a with
  | ⟨0, _⟩ => show win0_2.index t (0 : Fin 2) * 64 + 1 * j.val = j.val; omega
  | ⟨1, _⟩ => show win0_2.index t (1 : Fin 2) * 768 + 1 * d.val = d.val; omega

/-- A block of an array of real numbers holds real numbers: each of its entries is an entry of the array. -/
theorem ctxBlk_real (c : Dev nD) (t : Fin cfg0.N) (h : IsReal (ctxA m c)) : IsReal (ctxBlk m c t) :=
  fun i => h (((cfg0.win 0).blk t).view.emb i)
theorem candBlk_real (c : Dev nD) (t : Fin cfg0.N) (h : IsReal (candA m c)) : IsReal (candBlk m c t) :=
  fun i => h (((cfg0.win 1).blk t).view.emb i)
theorem codeBlk_real (c : Dev nD) (t : Fin cfg0.N) (h : IsReal (codeA m c)) : IsReal (codeBlk m c t) :=
  fun i => h (((cfg0.win 2).blk t).view.emb i)

/-! ## What a step writes -/

/-- Entry (0, k, r) of what step t leaves in its output block is entry (t, k, r) of the scores laid out by step. -/
theorem step_entry (c : Dev nD) (hc : IsReal (ctxA m c) ∧ IsReal (candA m c) ∧ IsReal (codeA m c))
    (t : Fin cfg0.N) (k : Fin 4) (r : Fin 1024) :
    out0_3 (ctxBlk m c t) (candBlk m c t) (codeBlk m c t) (ix3 (0 : Fin 1) k r)
      = stepScores (ctxA m c) (candA m c) (codeA m c) (ix3 (⟨t.val, step_lt t⟩ : Fin 8) k r) := by
  refine (PolyBlock.out_entry (ctxBlk m c t) (candBlk m c t) (codeBlk m c t) (ctxBlk_real m c t hc.1)
    (candBlk_real m c t hc.2.1) (codeBlk_real m c t hc.2.2) k r).trans ?_
  have a2 : (fun (j : Fin 64) (d : Fin 768) => EReal.toReal (codeBlk m c t (ix2 j d))) = wR (codeA m c) := by
    funext j d
    exact congrArg EReal.toReal (codeBlk_apply m c t j d)
  have a0 : (fun (s : Fin 512) (d : Fin 768) => EReal.toReal (ctxBlk m c t (ix3 k s d)))
      = ctxR (ctxA m c) (stepBatch ⟨t.val, step_lt t⟩ k) := by
    funext s d
    exact congrArg EReal.toReal (ctxBlk_apply m c t k s d)
  have a1 : (fun (q : Fin 1024) (d : Fin 768) => EReal.toReal (candBlk m c t (ix3 k q d)))
      = candR (candA m c) (stepBatch ⟨t.val, step_lt t⟩ k) := by
    funext q d
    exact congrArg EReal.toReal (candBlk_apply m c t k q d)
  exact congrArg (fun x : ℝ => (x : EReal)) (score_congr a2 a0 a1 r)

/-- The same at any index j of the block and any index i of the array with i = (t, j 1, j 2). -/
theorem step_entry_at (c : Dev nD) (hc : IsReal (ctxA m c) ∧ IsReal (candA m c) ∧ IsReal (codeA m c))
    (t : Fin cfg0.N) (j : S1x4x1024.Idx) (i : S8x4x1024.Idx)
    (hi0 : (i 0).val = t.val) (hi1 : (i 1).val = (j 1).val) (hi2 : (i 2).val = (j 2).val) :
    out0_3 (ctxBlk m c t) (candBlk m c t) (codeBlk m c t) j = stepScores (ctxA m c) (candA m c) (codeA m c) i := by
  have hj : j = ix3 (0 : Fin 1) (j 1 : Fin 4) (j 2 : Fin 1024) := by
    funext a
    match a with
    | ⟨0, _⟩ => exact Fin.ext (by have h : (j 0).val < 1 := (j 0).isLt; show (j 0).val = 0; omega)
    | ⟨1, _⟩ => rfl
    | ⟨2, _⟩ => rfl
  have hi : i = ix3 (⟨t.val, step_lt t⟩ : Fin 8) (j 1 : Fin 4) (j 2 : Fin 1024) := by
    funext a
    match a with
    | ⟨0, _⟩ => exact Fin.ext hi0
    | ⟨1, _⟩ => exact Fin.ext hi1
    | ⟨2, _⟩ => exact Fin.ext hi2
  rw [hj, hi]
  exact step_entry m c hc t (j 1) (j 2)

/-- What step t writes back is slab t of the scores laid out by step. -/
theorem step_writes (c : Dev nD) (hc : IsReal (ctxA m c) ∧ IsReal (candA m c) ∧ IsReal (codeA m c)) (t : Fin cfg0.N) :
    (dats m 0 c).flushed 3 t
      = ((cfg0.win 3).blk t).view.read (Elt Ideal) (stepScores (ctxA m c) (candA m c) (codeA m c)) := by
  show (cfg0.win 3).cut (grid0.coords t) ((dats m 0 c).after 3 t) = _
  rw [after0_3]
  obtain ⟨-, -, -, -, -, -, -, -, e0, e1, e2⟩ := block_index t
  funext j
  show out0_3 (ctxBlk m c t) (candBlk m c t) (codeBlk m c t) ((cfg0.win 3).xinj (grid0.coords t) j)
    = stepScores (ctxA m c) (candA m c) (codeA m c) (((cfg0.win 3).blk t).view.emb j)
  have hj0 : (j 0).val < 1 := (j 0).isLt
  refine step_entry_at m c hc t ((cfg0.win 3).xinj (grid0.coords t) j) (((cfg0.win 3).blk t).view.emb j) ?_ ?_ ?_
  · show win0_3.index t (0 : Fin 3) * 1 + 1 * (j 0).val = t.val; omega
  · show win0_3.index t (1 : Fin 3) * 4 + 1 * (j 1).val = (j 1).val; omega
  · show win0_3.index t (2 : Fin 3) * 1024 + 1 * (j 2).val = (j 2).val; omega

/-! ## The slabs tile the array -/

/-- An index is in step t's slab iff each coordinate is in the slab's range on its axis. -/
theorem mem_slab (t : Fin cfg0.N) (i : S8x4x1024.Idx) :
    i ∈ ((cfg0.win 3).blk t).view.set ↔ ∀ a : Fin 3, win0_3.index t a * S1x4x1024.size a ≤ (i a).val
      ∧ (i a).val < win0_3.index t a * S1x4x1024.size a + S1x4x1024.size a := by
  show i ∈ ((View.whole main_v0).slice (win0_3.rect t)).set ↔ _
  rw [View.set_slice_whole, Rect.mem_set_unit]
  exact Iff.rfl

/-- Index (t, k, r) is in step t's slab. -/
theorem slabs_cover (i : S8x4x1024.Idx) :
    ∃ t : Fin cfg0.N, (cfg0.win 3).flush t = true ∧ i ∈ ((cfg0.win 3).blk t).view.set := by
  have hi0 : (i 0).val < 8 := (i 0).isLt
  have hi1 : (i 1).val < 4 := (i 1).isLt
  have hi2 : (i 2).val < 1024 := (i 2).isLt
  have hN : cfg0.N = 8 := N_0
  obtain ⟨t, ht⟩ : ∃ t : Fin cfg0.N, t.val = (i 0).val := ⟨⟨(i 0).val, by omega⟩, rfl⟩
  obtain ⟨-, -, -, -, -, -, -, -, e0, e1, e2⟩ := block_index t
  refine ⟨t, flush0_3 t, ?_⟩
  rw [mem_slab]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 4 ≤ (i 1).val ∧ (i 1).val < win0_3.index t (1 : Fin 3) * 4 + 4
    omega
  | ⟨2, _⟩ =>
    show win0_3.index t (2 : Fin 3) * 1024 ≤ (i 2).val ∧ (i 2).val < win0_3.index t (2 : Fin 3) * 1024 + 1024
    omega

/-- After the eight steps the [8, 4, 1024] array holds the scores laid out by step. -/
theorem scores_by_step (c : Dev nD) (hc : IsReal (ctxA m c) ∧ IsReal (candA m c) ∧ IsReal (codeA m c)) :
    (dats m 0 c).arrAt 3 cfg0.N = stepScores (ctxA m c) (candA m c) (codeA m c) :=
  (dats m 0 c).arrAt_eq_of_cover 3 (stepScores (ctxA m c) (candA m c) (codeA m c)) (fun t _ => step_writes m c hc t)
    slabs_cover

/-! ## The reshape, and the run -/

/-- After the reshape the [32, 1024] array holds the score array. -/
theorem scores_by_row (c : Dev nD) (hc : IsReal (ctxA m c) ∧ IsReal (candA m c) ∧ IsReal (codeA m c)) :
    Pipeline.afterTail₀ cfgs (dats m) 0 (V0 m) [hostOps1] c main_v1 = G (ctxA m c) (candA m c) (codeA m c) := by
  have hA : Pipeline.withArrays (cfgs 0).spec c (V0 m c) (fun w => (dats m 0 c).arrAt w (cfgs 0).N)
      (Proc.devRef .tc main_v0) = stepScores (ctxA m c) (candA m c) (codeA m c) :=
    (Pipeline.withArrays_arr spec0 launch0.win.arr_inj c _ _ 3).trans (scores_by_step m c hc)
  unfold Pipeline.afterTail₀
  show StableHlo.after hostOps1 _ (Proc.devRef .tc main_v1) = _
  after_results
  exact (congrArg (fun X : S8x4x1024.Idx → EReal => shapeCast S32x1024 X shapeCasts_S8x4x1024_S32x1024) hA).trans
    (rows_of_stepScores (ctxA m c) (candA m c) (codeA m c) shapeCasts_S8x4x1024_S32x1024)

/-- The result array is no block's array, so the steps leave it to the reshape. -/
theorem result_mem_rest : main_v1 ∈ Pipeline.restRefs sig (cfgs 0).spec :=
  Pipeline.mem_restRefs_of main_v1 rfl (by decide)

/-- On arguments that are real numbers, every run ends with the result array at the score array and the three
    arguments as they were. -/
theorem kernel_run
    (hfin : ∀ c : Dev nD, IsReal (m ((c.tc : Thread nD τ).loc main_arg0))
      ∧ IsReal (m ((c.tc : Thread nD τ).loc main_arg1)) ∧ IsReal (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v1)
        = Cert.Poly.G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v1 result_mem_rest).trans (scores_by_row m c (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.PolyValue

end
-- ==== Proof.RefStage1.lean ====
/-
  The reference's first attention, read entry by entry on real inputs.

  Each stage of the reference program, at an index given by its coordinates, is a real number written in terms of the
  first logits logit1 m s = Σ_d w m d · ctx s d. The row maximum the reference subtracts is some real c (a maximum of
  finitely many reals taken from -∞ over a nonempty row); which real it is never matters, because the normalised
  exponentials exp (l - c) / Σ exp (l - c) summed against the context give the exp-weighted mean whatever c is.
-/
import proofs.«114482_g12025908429422_cont_fleet_699_15_alg».proof.Proof.Gen.ReferenceIdeal.Read
import proofs.«114482_g12025908429422_cont_fleet_699_15_alg».proof.Proof.Spec
import proofs.«114482_g12025908429422_cont_fleet_699_15_alg».proof.Proof.Lift

noncomputable section

open scoped BigOperators

namespace Cert.Poly.Ref

open Cert.ReferenceIdeal Cert.ReferenceIdeal.Gen Cert.ReferenceIdeal.Read Idealize.ShloMosaic Idealize.ShloMosaic.ValueIdx

/-- A maximum folded from -∞ over a nonempty range all of whose members are reals is a real. -/
theorem fold_max_of_real {n : ℕ} (hn : 0 < n) (g : Fin n → EReal) (hg : ∀ k, ∃ r : ℝ, g k = (r : EReal)) :
    ∃ c : ℝ, (Finset.univ : Finset (Fin n)).fold max (⊥ : EReal) g = (c : EReal) := by
  haveI : Nonempty (Fin n) := ⟨⟨0, hn⟩⟩
  rcases fold_max_mem g Finset.univ with ⟨_, h⟩ | ⟨i, _, h⟩
  · exact absurd h (Finset.univ_nonempty (α := Fin n)).ne_empty
  · obtain ⟨r, hr⟩ := hg i
    exact ⟨r, h.trans hr⟩

variable (x0 : (⟨S32x512x768, .f32⟩ : BufTy).Contents (Elt Ideal))
  (x2 : (⟨S64x768, .f32⟩ : BufTy).Contents (Elt Ideal))

/-- The code table broadcast over the batch reads the table's entry. -/
theorem v1_at (b : Fin 32) (m : Fin 64) (d : Fin 768) :
    val_main_v1 (F := Ideal) x2 (ix3 b m d) = x2 (ix2 m d) := by
  rw [val_main_v1_apply, val_main_v0_apply]
  exact congrArg x2 (funext fun a => Fin.ext (by match a with | ⟨0, _⟩ => rfl | ⟨1, _⟩ => rfl))

/-- The transposed context reads the context with its last two coordinates exchanged. -/
theorem v2_at (b : Fin 32) (d : Fin 768) (s : Fin 512) :
    val_main_v2 (F := Ideal) x0 (ix3 b d s) = x0 (ix3 b s d) := by
  rw [val_main_v2_apply]
  exact congrArg x0 (funext fun a => Fin.ext (by match a with | ⟨0, _⟩ => rfl | ⟨1, _⟩ => rfl | ⟨2, _⟩ => rfl))

/-- The first contraction at (b, m, s): the sum over the feature axis of code entry times context entry. -/
theorem v3_at (b : Fin 32) (m : Fin 64) (s : Fin 512) :
    val_main_v3 (F := Ideal) x0 x2 (ix3 b m s) = ∑ k : Fin 768, x2 (ix2 m k) * x0 (ix3 b s k) := by
  rw [val_main_v3_apply]
  refine Finset.sum_congr rfl fun k _ => ?_
  have el : lidx_main_v3 (ix3 b m s) k = ix3 b m k :=
    funext fun a => Fin.ext (by match a with | ⟨0, _⟩ => rfl | ⟨1, _⟩ => rfl | ⟨2, _⟩ => rfl)
  have er : ridx_main_v3 (ix3 b m s) k = ix3 b k s :=
    funext fun a => Fin.ext (by match a with | ⟨0, _⟩ => rfl | ⟨1, _⟩ => rfl | ⟨2, _⟩ => rfl)
  rw [el, er, v1_at, v2_at]

/-- On real inputs the first contraction is the first logit. -/
theorem v3_real (h0 : IsReal x0) (h2 : IsReal x2) (b : Fin 32) (m : Fin 64) (s : Fin 512) :
    val_main_v3 (F := Ideal) x0 x2 (ix3 b m s) = ((logit1 (wR x2) (ctxR x0 b) m s : ℝ) : EReal) := by
  rw [v3_at]
  unfold logit1
  refine Eq.trans ?_ (sum_coe _)
  refine Finset.sum_congr rfl fun k _ => ?_
  rw [EReal.coe_mul]
  exact congrArg₂ (· * ·) (h2.eq_coe (ix2 m k)) (h0.eq_coe (ix3 b s k))

/-- So every entry of the first contraction is a real. -/
theorem v3_isReal (h0 : IsReal x0) (h2 : IsReal x2) (i : S32x64x512.Idx) :
    ∃ r : ℝ, val_main_v3 (F := Ideal) x0 x2 i = (r : EReal) := by
  obtain ⟨b, m, s, rfl⟩ : ∃ (b : Fin 32) (m : Fin 64) (s : Fin 512), i = ix3 b m s := ⟨i 0, i 1, i 2, eq_ix3 i⟩
  exact ⟨_, v3_real x0 x2 h0 h2 b m s⟩

/-- The row maximum of the first logits, folded from -∞ over the 512 context positions, is a real. -/
theorem v4_real (h0 : IsReal x0) (h2 : IsReal x2) (b : Fin 32) (m : Fin 64) :
    ∃ c : ℝ, val_main_v4 (F := Ideal) x0 x2 (ix2 b m) = (c : EReal) := by
  unfold val_main_v4
  rw [Host.reduce_eq_fold_single (FloatOps.maximumf (F := Ideal) (φ := .f32)) (val_main_v3 (F := Ideal) x0 x2)
    (val_main_cst (F := Ideal)) reducesTo_S32x64x512_S32x64_d2 (by decide) h_S_ (ix2 b m)]
  have hinit : val_main_cst (F := Ideal) (Shape.Idx.first h_S_) = (⊥ : EReal) := by
    rw [val_main_cst_apply]; exact ofBits_neg_inf
  rw [hinit]
  exact fold_max_of_real (by decide) _ (fun k => v3_isReal x0 x2 h0 h2 _)

/-- The maximum of -∞ with the row maximum is the row maximum: the shift the reference subtracts is a real. -/
theorem v6_real (h0 : IsReal x0) (h2 : IsReal x2) (b : Fin 32) (m : Fin 64) :
    ∃ c : ℝ, val_main_v6 (F := Ideal) x0 x2 (ix2 b m) = (c : EReal) := by
  obtain ⟨c, hc⟩ := v4_real x0 x2 h0 h2 b m
  refine ⟨c, ?_⟩
  rw [val_main_v6_apply, val_main_v5_apply, val_main_cst_0_apply, hc]
  show max (Ideal.ofBits .f32 0xFF800000#32) (c : EReal) = (c : EReal)
  rw [ofBits_neg_inf]
  exact max_eq_right bot_le

/-- The shift of row (b, m), as a real. -/
def shift1 (b : Fin 32) (m : Fin 64) : ℝ := EReal.toReal (val_main_v6 (F := Ideal) x0 x2 (ix2 b m))

theorem v6_eq (h0 : IsReal x0) (h2 : IsReal x2) (b : Fin 32) (m : Fin 64) :
    val_main_v6 (F := Ideal) x0 x2 (ix2 b m) = ((shift1 x0 x2 b m : ℝ) : EReal) := by
  obtain ⟨c, hc⟩ := v6_real x0 x2 h0 h2 b m
  unfold shift1
  rw [hc, EReal.toReal_coe]

/-- The shift broadcast along the row. -/
theorem v8_at (b : Fin 32) (m : Fin 64) (s : Fin 512) :
    val_main_v8 (F := Ideal) x0 x2 (ix3 b m s) = val_main_v6 (F := Ideal) x0 x2 (ix2 b m) := by
  rw [val_main_v8_apply, val_main_v7_apply]
  exact congrArg (val_main_v6 (F := Ideal) x0 x2) (funext fun a => Fin.ext (by match a with | ⟨0, _⟩ => rfl | ⟨1, _⟩ => rfl))

/-- The shifted exponential at (b, m, s). -/
theorem v10_real (h0 : IsReal x0) (h2 : IsReal x2) (b : Fin 32) (m : Fin 64) (s : Fin 512) :
    val_main_v10 (F := Ideal) x0 x2 (ix3 b m s)
      = ((Real.exp (logit1 (wR x2) (ctxR x0 b) m s - shift1 x0 x2 b m) : ℝ) : EReal) := by
  rw [val_main_v10_apply, val_main_v9_apply, v3_real x0 x2 h0 h2, v8_at, v6_eq x0 x2 h0 h2,
    Ideal.hostUnary_exp_def, Ideal.subf_def, ← EReal.coe_sub]
  exact exp_coe _

/-- The row sum of the shifted exponentials. -/
theorem v11_real (h0 : IsReal x0) (h2 : IsReal x2) (b : Fin 32) (m : Fin 64) :
    val_main_v11 (F := Ideal) x0 x2 (ix2 b m)
      = ((∑ s : Fin 512, Real.exp (logit1 (wR x2) (ctxR x0 b) m s - shift1 x0 x2 b m) : ℝ) : EReal) := by
  rw [val_main_v11_apply, val_main_cst_1_apply]
  show Ideal.ofBits .f32 0x00000000#32 + _ = _
  rw [Ideal.ofBits_zero_f32, zero_add]
  refine Eq.trans ?_ (sum_coe _)
  refine Finset.sum_congr rfl fun k _ => ?_
  have e : idx_main_v11 (ix2 b m) k = ix3 b m k :=
    funext fun a => Fin.ext (by match a with | ⟨0, _⟩ => rfl | ⟨1, _⟩ => rfl | ⟨2, _⟩ => rfl)
  rw [e, v10_real x0 x2 h0 h2]

/-- The row sum broadcast along the row. -/
theorem v13_at (b : Fin 32) (m : Fin 64) (s : Fin 512) :
    val_main_v13 (F := Ideal) x0 x2 (ix3 b m s) = val_main_v11 (F := Ideal) x0 x2 (ix2 b m) := by
  rw [val_main_v13_apply, val_main_v12_apply]
  exact congrArg (val_main_v11 (F := Ideal) x0 x2) (funext fun a => Fin.ext (by match a with | ⟨0, _⟩ => rfl | ⟨1, _⟩ => rfl))

/-- The first softmax at (b, m, s): the shifted exponential over the row's sum of them. -/
theorem v14_real (h0 : IsReal x0) (h2 : IsReal x2) (b : Fin 32) (m : Fin 64) (s : Fin 512) :
    val_main_v14 (F := Ideal) x0 x2 (ix3 b m s)
      = ((Real.exp (logit1 (wR x2) (ctxR x0 b) m s - shift1 x0 x2 b m)
          / ∑ j : Fin 512, Real.exp (logit1 (wR x2) (ctxR x0 b) m j - shift1 x0 x2 b m) : ℝ) : EReal) := by
  rw [val_main_v14_apply, v10_real x0 x2 h0 h2, v13_at, v11_real x0 x2 h0 h2, Ideal.hostDivf_def]
  exact div_coe_coe _ (sum_exp_pos _).ne'

/-- The context embedding at (b, m, d): the softmax-weighted sum of the context is the exp-weighted mean. -/
theorem v15_real (h0 : IsReal x0) (h2 : IsReal x2) (b : Fin 32) (m : Fin 64) (d : Fin 768) :
    val_main_v15 (F := Ideal) x0 x2 (ix3 b m d) = ((emb (wR x2) (ctxR x0 b) m d : ℝ) : EReal) := by
  rw [val_main_v15_apply]
  unfold emb
  rw [← sum_softmax_mul (logit1 (wR x2) (ctxR x0 b) m) (fun s => ctxR x0 b s d) (shift1 x0 x2 b m)]
  refine Eq.trans ?_ (sum_coe _)
  refine Finset.sum_congr rfl fun k _ => ?_
  have el : lidx_main_v15 (ix3 b m d) k = ix3 b m k :=
    funext fun a => Fin.ext (by match a with | ⟨0, _⟩ => rfl | ⟨1, _⟩ => rfl | ⟨2, _⟩ => rfl)
  have er : ridx_main_v15 (ix3 b m d) k = ix3 b k d :=
    funext fun a => Fin.ext (by match a with | ⟨0, _⟩ => rfl | ⟨1, _⟩ => rfl | ⟨2, _⟩ => rfl)
  rw [el, er, v14_real x0 x2 h0 h2, EReal.coe_mul]
  exact congrArg₂ (· * ·) rfl (h0.eq_coe (ix3 b k d))

end Cert.Poly.Ref

end
-- ==== Proof.RefStage2.lean ====
/-
  The reference's second attention and its final contraction, read entry by entry on real inputs.

  With the context embeddings emb m d known to be reals, the second logits are logit2 m r = Σ_d emb m d · cand r d; the
  softmax over the codes (shifted by some real, the row maximum) mixes the embeddings, and the candidate's product with
  that mixture, summed over the feature axis, is the mixture of the logits themselves: the exp-weighted mean of
  logit2 · r over the codes, which is the score.
-/
import proofs.«114482_g12025908429422_cont_fleet_699_15_alg».proof.Proof.RefStage1

noncomputable section

open scoped BigOperators

namespace Cert.Poly.Ref

open Cert.ReferenceIdeal Cert.ReferenceIdeal.Gen Cert.ReferenceIdeal.Read Idealize.ShloMosaic Idealize.ShloMosaic.ValueIdx

/-- The candidate's product with the softmax mixture of the embeddings, summed over the features, is the score: the
    contraction exchanges with the mixture, and softmax weights summed against the logits are their weighted mean. -/
theorem mix_contract_eq_score {M S R D : ℕ} (W : Fin M → Fin D → ℝ) (C : Fin S → Fin D → ℝ) (K : Fin R → Fin D → ℝ)
    (r : Fin R) (c : ℝ) :
    ∑ d : Fin D, (∑ m : Fin M, (Real.exp (logit2 W C K m r - c) / ∑ j : Fin M, Real.exp (logit2 W C K j r - c))
        * emb W C m d) * K r d = score W C K r := by
  refine (sum_mix_mul (fun m : Fin M => Real.exp (logit2 W C K m r - c) / ∑ j : Fin M, Real.exp (logit2 W C K j r - c))
    (emb W C) (K r)).trans ?_
  exact sum_softmax_mul (fun m => logit2 W C K m r) (fun m => logit2 W C K m r) c

variable (x0 : (⟨S32x512x768, .f32⟩ : BufTy).Contents (Elt Ideal))
  (x1 : (⟨S32x1024x768, .f32⟩ : BufTy).Contents (Elt Ideal))
  (x2 : (⟨S64x768, .f32⟩ : BufTy).Contents (Elt Ideal))

/-- The transposed embeddings read the embeddings with the last two coordinates exchanged. -/
theorem v16_at (b : Fin 32) (d : Fin 768) (m : Fin 64) :
    val_main_v16 (F := Ideal) x0 x2 (ix3 b d m) = val_main_v15 (F := Ideal) x0 x2 (ix3 b m d) := by
  rw [val_main_v16_apply]
  exact congrArg (val_main_v15 (F := Ideal) x0 x2)
    (funext fun a => Fin.ext (by match a with | ⟨0, _⟩ => rfl | ⟨1, _⟩ => rfl | ⟨2, _⟩ => rfl))

/-- The second contraction at (b, r, m) is the second logit of code m against candidate r. -/
theorem v17_real (h0 : IsReal x0) (h1 : IsReal x1) (h2 : IsReal x2) (b : Fin 32) (r : Fin 1024) (m : Fin 64) :
    val_main_v17 (F := Ideal) x0 x1 x2 (ix3 b r m)
      = ((logit2 (wR x2) (ctxR x0 b) (candR x1 b) m r : ℝ) : EReal) := by
  rw [val_main_v17_apply]
  unfold logit2
  refine Eq.trans ?_ (sum_coe _)
  refine Finset.sum_congr rfl fun k _ => ?_
  have el : lidx_main_v17 (ix3 b r m) k = ix3 b r k :=
    funext fun a => Fin.ext (by match a with | ⟨0, _⟩ => rfl | ⟨1, _⟩ => rfl | ⟨2, _⟩ => rfl)
  have er : ridx_main_v17 (ix3 b r m) k = ix3 b k m :=
    funext fun a => Fin.ext (by match a with | ⟨0, _⟩ => rfl | ⟨1, _⟩ => rfl | ⟨2, _⟩ => rfl)
  rw [el, er, v16_at, v15_real x0 x2 h0 h2, EReal.coe_mul]
  exact (mul_comm _ _).trans (congrArg₂ (· * ·) rfl (h1.eq_coe (ix3 b r k)))

/-- So every entry of the second contraction is a real. -/
theorem v17_isReal (h0 : IsReal x0) (h1 : IsReal x1) (h2 : IsReal x2) (i : S32x1024x64.Idx) :
    ∃ t : ℝ, val_main_v17 (F := Ideal) x0 x1 x2 i = (t : EReal) := by
  obtain ⟨b, r, m, rfl⟩ : ∃ (b : Fin 32) (r : Fin 1024) (m : Fin 64), i = ix3 b r m := ⟨i 0, i 1, i 2, eq_ix3 i⟩
  exact ⟨_, v17_real x0 x1 x2 h0 h1 h2 b r m⟩

/-- The maximum of the second logits over the 64 codes, folded from -∞, is a real. -/
theorem v18_real (h0 : IsReal x0) (h1 : IsReal x1) (h2 : IsReal x2) (b : Fin 32) (r : Fin 1024) :
    ∃ c : ℝ, val_main_v18 (F := Ideal) x0 x1 x2 (ix2 b r) = (c : EReal) := by
  unfold val_main_v18
  rw [Host.reduce_eq_fold_single (FloatOps.maximumf (F := Ideal) (φ := .f32)) (val_main_v17 (F := Ideal) x0 x1 x2)
    (val_main_cst_2 (F := Ideal)) reducesTo_S32x1024x64_S32x1024_d2 (by decide) h_S_ (ix2 b r)]
  have hinit : val_main_cst_2 (F := Ideal) (Shape.Idx.first h_S_) = (⊥ : EReal) := by
    rw [val_main_cst_2_apply]; exact ofBits_neg_inf
  rw [hinit]
  exact fold_max_of_real (by decide) _ (fun k => v17_isReal x0 x1 x2 h0 h1 h2 _)

/-- The maximum of -∞ with it is the same real: the second shift. -/
theorem v20_real (h0 : IsReal x0) (h1 : IsReal x1) (h2 : IsReal x2) (b : Fin 32) (r : Fin 1024) :
    ∃ c : ℝ, val_main_v20 (F := Ideal) x0 x1 x2 (ix2 b r) = (c : EReal) := by
  obtain ⟨c, hc⟩ := v18_real x0 x1 x2 h0 h1 h2 b r
  refine ⟨c, ?_⟩
  rw [val_main_v20_apply, val_main_v19_apply, val_main_cst_3_apply, hc, Ideal.maximumf_def, Ideal.ofBits_def,
    ofBits_neg_inf]
  exact max_eq_right bot_le

/-- The shift of candidate row (b, r), as a real. -/
def shift2 (b : Fin 32) (r : Fin 1024) : ℝ := EReal.toReal (val_main_v20 (F := Ideal) x0 x1 x2 (ix2 b r))

theorem v20_eq (h0 : IsReal x0) (h1 : IsReal x1) (h2 : IsReal x2) (b : Fin 32) (r : Fin 1024) :
    val_main_v20 (F := Ideal) x0 x1 x2 (ix2 b r) = ((shift2 x0 x1 x2 b r : ℝ) : EReal) := by
  obtain ⟨c, hc⟩ := v20_real x0 x1 x2 h0 h1 h2 b r
  unfold shift2
  rw [hc, EReal.toReal_coe]

/-- The second shift broadcast along the codes. -/
theorem v22_at (b : Fin 32) (r : Fin 1024) (m : Fin 64) :
    val_main_v22 (F := Ideal) x0 x1 x2 (ix3 b r m) = val_main_v20 (F := Ideal) x0 x1 x2 (ix2 b r) := by
  rw [val_main_v22_apply, val_main_v21_apply]
  exact congrArg (val_main_v20 (F := Ideal) x0 x1 x2)
    (funext fun a => Fin.ext (by match a with | ⟨0, _⟩ => rfl | ⟨1, _⟩ => rfl))

/-- The shifted exponential of the second logit at (b, r, m). -/
theorem v24_real (h0 : IsReal x0) (h1 : IsReal x1) (h2 : IsReal x2) (b : Fin 32) (r : Fin 1024) (m : Fin 64) :
    val_main_v24 (F := Ideal) x0 x1 x2 (ix3 b r m)
      = ((Real.exp (logit2 (wR x2) (ctxR x0 b) (candR x1 b) m r - shift2 x0 x1 x2 b r) : ℝ) : EReal) := by
  rw [val_main_v24_apply, val_main_v23_apply, v17_real x0 x1 x2 h0 h1 h2, v22_at, v20_eq x0 x1 x2 h0 h1 h2,
    Ideal.hostUnary_exp_def, Ideal.subf_def, ← EReal.coe_sub]
  exact exp_coe _

/-- Their sum over the codes. -/
theorem v25_real (h0 : IsReal x0) (h1 : IsReal x1) (h2 : IsReal x2) (b : Fin 32) (r : Fin 1024) :
    val_main_v25 (F := Ideal) x0 x1 x2 (ix2 b r)
      = ((∑ m : Fin 64, Real.exp (logit2 (wR x2) (ctxR x0 b) (candR x1 b) m r - shift2 x0 x1 x2 b r) : ℝ) : EReal) := by
  rw [val_main_v25_apply, val_main_cst_4_apply, Ideal.ofBits_def, Ideal.ofBits_zero_f32, zero_add]
  refine Eq.trans ?_ (sum_coe _)
  refine Finset.sum_congr rfl fun k _ => ?_
  have e : idx_main_v25 (ix2 b r) k = ix3 b r k :=
    funext fun a => Fin.ext (by match a with | ⟨0, _⟩ => rfl | ⟨1, _⟩ => rfl | ⟨2, _⟩ => rfl)
  rw [e, v24_real x0 x1 x2 h0 h1 h2]

/-- That sum broadcast along the codes. -/
theorem v27_at (b : Fin 32) (r : Fin 1024) (m : Fin 64) :
    val_main_v27 (F := Ideal) x0 x1 x2 (ix3 b r m) = val_main_v25 (F := Ideal) x0 x1 x2 (ix2 b r) := by
  rw [val_main_v27_apply, val_main_v26_apply]
  exact congrArg (val_main_v25 (F := Ideal) x0 x1 x2)
    (funext fun a => Fin.ext (by match a with | ⟨0, _⟩ => rfl | ⟨1, _⟩ => rfl))

/-- The second softmax at (b, r, m). -/
theorem v28_real (h0 : IsReal x0) (h1 : IsReal x1) (h2 : IsReal x2) (b : Fin 32) (r : Fin 1024) (m : Fin 64) :
    val_main_v28 (F := Ideal) x0 x1 x2 (ix3 b r m)
      = ((Real.exp (logit2 (wR x2) (ctxR x0 b) (candR x1 b) m r - shift2 x0 x1 x2 b r)
          / ∑ j : Fin 64, Real.exp (logit2 (wR x2) (ctxR x0 b) (candR x1 b) j r - shift2 x0 x1 x2 b r) : ℝ) : EReal) := by
  rw [val_main_v28_apply, v24_real x0 x1 x2 h0 h1 h2, v27_at, v25_real x0 x1 x2 h0 h1 h2, Ideal.hostDivf_def]
  exact div_coe_coe _ (sum_exp_pos _).ne'

/-- The softmax mixture of the embeddings at (b, r, d). -/
theorem v29_real (h0 : IsReal x0) (h1 : IsReal x1) (h2 : IsReal x2) (b : Fin 32) (r : Fin 1024) (d : Fin 768) :
    val_main_v29 (F := Ideal) x0 x1 x2 (ix3 b r d)
      = ((∑ m : Fin 64, (Real.exp (logit2 (wR x2) (ctxR x0 b) (candR x1 b) m r - shift2 x0 x1 x2 b r)
          / ∑ j : Fin 64, Real.exp (logit2 (wR x2) (ctxR x0 b) (candR x1 b) j r - shift2 x0 x1 x2 b r))
          * emb (wR x2) (ctxR x0 b) m d : ℝ) : EReal) := by
  rw [val_main_v29_apply]
  refine Eq.trans ?_ (sum_coe _)
  refine Finset.sum_congr rfl fun k _ => ?_
  have el : lidx_main_v29 (ix3 b r d) k = ix3 b r k :=
    funext fun a => Fin.ext (by match a with | ⟨0, _⟩ => rfl | ⟨1, _⟩ => rfl | ⟨2, _⟩ => rfl)
  have er : ridx_main_v29 (ix3 b r d) k = ix3 b k d :=
    funext fun a => Fin.ext (by match a with | ⟨0, _⟩ => rfl | ⟨1, _⟩ => rfl | ⟨2, _⟩ => rfl)
  rw [el, er, v28_real x0 x1 x2 h0 h1 h2, v15_real x0 x2 h0 h2, EReal.coe_mul]

/-- The last contraction at (b, r): candidate r's score in batch b. -/
theorem v31_real (h0 : IsReal x0) (h1 : IsReal x1) (h2 : IsReal x2) (b : Fin 32) (r : Fin 1024) :
    val_main_v31 (F := Ideal) x0 x1 x2 (ix2 b r)
      = ((score (wR x2) (ctxR x0 b) (candR x1 b) r : ℝ) : EReal) := by
  rw [val_main_v31_apply, val_main_cst_5_apply, Ideal.ofBits_def, Ideal.ofBits_zero_f32, zero_add,
    ← mix_contract_eq_score (wR x2) (ctxR x0 b) (candR x1 b) r (shift2 x0 x1 x2 b r)]
  refine Eq.trans ?_ (sum_coe _)
  refine Finset.sum_congr rfl fun k _ => ?_
  have e : idx_main_v31 (ix2 b r) k = ix3 b r k :=
    funext fun a => Fin.ext (by match a with | ⟨0, _⟩ => rfl | ⟨1, _⟩ => rfl | ⟨2, _⟩ => rfl)
  rw [e, val_main_v30_apply, v29_real x0 x1 x2 h0 h1 h2, Ideal.mulf_def, EReal.coe_mul]
  exact congrArg₂ (· * ·) rfl (h1.eq_coe (ix3 b r k))

end Cert.Poly.Ref

end
-- ==== Proof.RefValue.lean ====
/-
  The reference computes the score.

  On real inputs the reference's result at (b, r) is candidate r's score in batch b: the exp-weighted mean over the codes
  of the second logits, built from the exp-weighted context embeddings. The stage-by-stage reading is done in the two
  modules before this one; here the result array is identified with the whole array of scores.
-/
import proofs.«114482_g12025908429422_cont_fleet_699_15_alg».proof.Proof.RefStage2

noncomputable section

namespace Cert.Poly.Ref

open Cert.ReferenceIdeal Cert.ReferenceIdeal.Gen Cert.ReferenceIdeal.Read Idealize.ShloMosaic Idealize.ShloMosaic.ValueIdx

/-- The reference's result array is the array of scores. -/
theorem val_eq_G (x0 : (⟨Cert.ReferenceIdeal.S32x512x768, .f32⟩ : BufTy).Contents (Elt Ideal))
    (x1 : (⟨Cert.ReferenceIdeal.S32x1024x768, .f32⟩ : BufTy).Contents (Elt Ideal))
    (x2 : (⟨Cert.ReferenceIdeal.S64x768, .f32⟩ : BufTy).Contents (Elt Ideal))
    (h0 : Cert.Poly.IsReal x0) (h1 : Cert.Poly.IsReal x1) (h2 : Cert.Poly.IsReal x2) :
    Cert.ReferenceIdeal.Read.val_main_v31 (F := Ideal) x0 x1 x2 = Cert.Poly.G x0 x1 x2 := by
  funext i
  obtain ⟨b, r, rfl⟩ : ∃ (b : Fin 32) (r : Fin 1024), i = ix2 b r := ⟨i 0, i 1, eq_ix2 i⟩
  exact v31_real x0 x1 x2 h0 h1 h2 b r

end Cert.Poly.Ref

end
-- ==== Proof.lean ====
/-
  The certificate of the poly-encoder score kernel against its two-attention reference.

  Both programs, read on the extended reals from finite inputs, compute per batch element and candidate r the score
    (Σ_m exp (T m r) · T m r) / Σ_m exp (T m r),   T m r = Σ_d e m d · cand r d,
    e m d = (Σ_s exp (L m s) · ctx s d) / Σ_s exp (L m s),   L m s = Σ_d w m d · ctx s d.
  The kernel takes the first softmax without subtracting the row maximum and the second with it, normalises after its
  weighted sums, and never forms the candidate-conditioned embedding; the reference subtracts the maximum in both
  softmaxes, normalises first, forms Σ_m A r m · e m d and contracts it with the candidate. On real numbers these agree:
  an exponentially weighted mean is unchanged by a shift of the exponents and by normalising the weights first, and the
  contraction with the candidate exchanges with the mixture over the codes. The precondition makes every input entry
  a real number, which is what keeps every intermediate value on the real line (positive divisors, a finite maximum).
  The three runs are the generated frames and the reference's generated run; nothing of the kernel is rewritten by the
  idealization, so the word-level kernel and its idealization are the same text.
-/
import proofs.«114482_g12025908429422_cont_fleet_699_15_alg».proof.Defs
import proofs.«114482_g12025908429422_cont_fleet_699_15_alg».proof.Proof.Gen.Kernel
import proofs.«114482_g12025908429422_cont_fleet_699_15_alg».proof.Proof.Gen.Kernel.Skeleton
import proofs.«114482_g12025908429422_cont_fleet_699_15_alg».proof.Proof.Gen.Kernel.Launch
import proofs.«114482_g12025908429422_cont_fleet_699_15_alg».proof.Proof.Gen.Kernel.Points
import proofs.«114482_g12025908429422_cont_fleet_699_15_alg».proof.Proof.Gen.Kernel.Frame
import proofs.«114482_g12025908429422_cont_fleet_699_15_alg».proof.Proof.Gen.KernelIdeal
import proofs.«114482_g12025908429422_cont_fleet_699_15_alg».proof.Proof.Gen.KernelIdeal.Skeleton
import proofs.«114482_g12025908429422_cont_fleet_699_15_alg».proof.Proof.Gen.KernelIdeal.Launch
import proofs.«114482_g12025908429422_cont_fleet_699_15_alg».proof.Proof.Gen.KernelIdeal.Points
import proofs.«114482_g12025908429422_cont_fleet_699_15_alg».proof.Proof.Gen.KernelIdeal.Frame
import proofs.«114482_g12025908429422_cont_fleet_699_15_alg».proof.Proof.Gen.ReferenceIdeal
import proofs.«114482_g12025908429422_cont_fleet_699_15_alg».proof.Proof.Gen.Pre_finite_inputs
import proofs.«114482_g12025908429422_cont_fleet_699_15_alg».proof.Proof.Gen.ReferenceIdeal.Run
import proofs.«114482_g12025908429422_cont_fleet_699_15_alg».proof.Proof.Gen.ReferenceIdeal.Read
import proofs.«114482_g12025908429422_cont_fleet_699_15_alg».proof.Proof.Finite
import proofs.«114482_g12025908429422_cont_fleet_699_15_alg».proof.Proof.KernelArray
import proofs.«114482_g12025908429422_cont_fleet_699_15_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel is rewritten when it is read on the extended reals. -/
theorem preserves : Cert.preserves_Kernel_KernelIdeal := trivial

/-- From memories agreeing on the three arguments, finite, both programs end with the score array. -/
theorem algebraic : Cert.algebraic_KernelIdeal_ReferenceIdeal := by
  intro m ρ m' ρ' hpre hagree
  have hfin : ∀ c : Dev Cert.KernelIdeal.nD,
      Cert.Poly.IsReal (m ((c.tc : Thread Cert.KernelIdeal.nD Cert.KernelIdeal.τ).loc Cert.KernelIdeal.main_arg0))
      ∧ Cert.Poly.IsReal (m ((c.tc : Thread Cert.KernelIdeal.nD Cert.KernelIdeal.τ).loc Cert.KernelIdeal.main_arg1))
      ∧ Cert.Poly.IsReal (m ((c.tc : Thread Cert.KernelIdeal.nD Cert.KernelIdeal.τ).loc Cert.KernelIdeal.main_arg2)) :=
    fun c => Cert.Poly.isReal_of_pre _ _ _ (hpre c)
  refine ⟨_, Cert.KernelIdeal.PolyValue.kernel_run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2]
  exact Cert.Poly.Ref.val_eq_G _ _ _ (hfin c).1 (hfin c).2.1 (hfin c).2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
